-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S5000x128 : Shape := ⟨2, ![5000, 128]⟩
abbrev S1x640000 : Shape := ⟨2, ![1, 640000]⟩
abbrev S640000 : Shape := ⟨1, ![640000]⟩
abbrev S50000 : Shape := ⟨1, ![50000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 85
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S50000, .i32⟩
  | .hbm, ⟨12, _⟩ => ⟨S690000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S690000, .i32⟩
  | .hbm, ⟨33, _⟩ => ⟨S690000, .i1⟩
  | .hbm, ⟨34, _⟩ => ⟨S_, .i32⟩
  | .hbm, ⟨35, _⟩ => ⟨S690000, .i32⟩
  | .hbm, ⟨36, _⟩ => ⟨S690000, .i32⟩
  | .hbm, ⟨37, _⟩ => ⟨S690000, .i32⟩
  | .hbm, ⟨38, _⟩ => ⟨S690000x1, .i32⟩
  | .hbm, ⟨39, _⟩ => ⟨S690000, .f32⟩
  | .hbm, ⟨40, _⟩ => ⟨S_, .i32⟩
  | .hbm, ⟨41, _⟩ => ⟨S690000, .i32⟩
  | .hbm, ⟨42, _⟩ => ⟨S690000, .i1⟩
  | .hbm, ⟨43, _⟩ => ⟨S_, .i32⟩
  | .hbm, ⟨44, _⟩ => ⟨S690000, .i32⟩
  | .hbm, ⟨45, _⟩ => ⟨S690000, .i32⟩
  | .hbm, ⟨46, _⟩ => ⟨S690000, .i32⟩
  | .hbm, ⟨47, _⟩ => ⟨S690000x1, .i32⟩
  | .hbm, ⟨48, _⟩ => ⟨S690000, .f32⟩
  | .hbm, ⟨49, _⟩ => ⟨S690000, .f32⟩
  | .hbm, ⟨50, _⟩ => ⟨S_, .i32⟩
  | .hbm, ⟨51, _⟩ => ⟨S690000, .i32⟩
  | .hbm, ⟨52, _⟩ => ⟨S690000, .i1⟩
  | .hbm, ⟨53, _⟩ => ⟨S_, .i32⟩
  | .hbm, ⟨54, _⟩ => ⟨S690000, .i32⟩
  | .hbm, ⟨55, _⟩ => ⟨S690000, .i32⟩
  | .hbm, ⟨56, _⟩ => ⟨S690000, .i32⟩
  | .hbm, ⟨57, _⟩ => ⟨S690000x1, .i32⟩
  | .hbm, ⟨58, _⟩ => ⟨S690000x128, .f32⟩
  | .hbm, ⟨59, _⟩ => ⟨S690000x1, .f32⟩
  | .hbm, ⟨60, _⟩ => ⟨S690000x128, .f32⟩
  | .hbm, ⟨61, _⟩ => ⟨S690000x128, .f32⟩
  | .hbm, ⟨62, _⟩ => ⟨S_, .f32⟩
  | .hbm, ⟨63, _⟩ => ⟨S50000x128, .f32⟩
  | .hbm, ⟨64, _⟩ => ⟨S690000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev main_v47_2 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  dot_S5000x128_S128x128_S5000x128_1_0_0_1_n_n_wf : DotDims.WF S5000x128 S128x128 S5000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S690000, .i32⟩
  | .hbm, ⟨33, _⟩ => ⟨S690000, .i1⟩
  | .hbm, ⟨34, _⟩ => ⟨S_, .i32⟩
  | .hbm, ⟨35, _⟩ => ⟨S690000, .i32⟩
  | .hbm, ⟨36, _⟩ => ⟨S690000, .i32⟩
  | .hbm, ⟨37, _⟩ => ⟨S690000, .i32⟩
  | .hbm, ⟨38, _⟩ => ⟨S690000x1, .i32⟩
  | .hbm, ⟨39, _⟩ => ⟨S690000, .f32⟩
  | .hbm, ⟨40, _⟩ => ⟨S_, .i32⟩
  | .hbm, ⟨41, _⟩ => ⟨S690000, .i32⟩
  | .hbm, ⟨42, _⟩ => ⟨S690000, .i1⟩
  | .hbm, ⟨43, _⟩ => ⟨S_, .i32⟩
  | .hbm, ⟨44, _⟩ => ⟨S690000, .i32⟩
  | .hbm, ⟨45, _⟩ => ⟨S690000, .i32⟩
  | .hbm, ⟨46, _⟩ => ⟨S690000, .i32⟩
  | .hbm, ⟨47, _⟩ => ⟨S690000x1, .i32⟩
  | .hbm, ⟨48, _⟩ => ⟨S690000, .f32⟩
  | .hbm, ⟨49, _⟩ => ⟨S690000, .f32⟩
  | .hbm, ⟨50, _⟩ => ⟨S_, .i32⟩
  | .hbm, ⟨51, _⟩ => ⟨S690000, .i32⟩
  | .hbm, ⟨52, _⟩ => ⟨S690000, .i1⟩
  | .hbm, ⟨53, _⟩ => ⟨S_, .i32⟩
  | .hbm, ⟨54, _⟩ => ⟨S690000, .i32⟩
  | .hbm, ⟨55, _⟩ => ⟨S690000, .i32⟩
  | .hbm, ⟨56, _⟩ => ⟨S690000, .i32⟩
  | .hbm, ⟨57, _⟩ => ⟨S690000x1, .i32⟩
  | .hbm, ⟨58, _⟩ => ⟨S690000x128, .f32⟩
  | .hbm, ⟨59, _⟩ => ⟨S690000x1, .f32⟩
  | .hbm, ⟨60, _⟩ => ⟨S690000x128, .f32⟩
  | .hbm, ⟨61, _⟩ => ⟨S690000x128, .f32⟩
  | .hbm, ⟨62, _⟩ => ⟨S_, .f32⟩
  | .hbm, ⟨63, _⟩ => ⟨S50000x128, .f32⟩
  | .hbm, ⟨64, _⟩ => ⟨S690000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .i32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S_, .i1⟩
  | .hbm, ⟨100, _⟩ => ⟨S_, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_cst_3 : Ref sig .tc := ⟨.hbm, 98, rfl⟩
abbrev main_call2_v12 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_15 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.AggChain.lean ====
/-
  The degree-normalised neighbourhood aggregation, as the chain of host operations both programs apply to the projected
  features xw and the edge list ei (2 × 640000 node numbers): the sources and destinations are the two rows of ei, each
  followed by the 50000 self-loops 0, 1, …; deg counts how often a node is a destination (a scatter-addition of ones into
  zeros); dis is 1 / sqrt (max deg 1) where deg > 0 and 0 elsewhere; each edge's weight is dis at its source times dis
  at its destination (node numbers below zero are wrapped by 50000 before they are looked up); the message of an edge is
  its source's row of xw times its weight; the messages are scatter-added into zeros at their destinations.
-/
import proofs.«148279_j47321949667549_1_alg».proof.KernelIdeal

noncomputable section

namespace Cert.KernelIdeal.Val

open Idealize.ShloMosaic Cert.KernelIdeal
open Facts₀ Facts

variable {F : FTy → Type} [FloatOps F] [Facts]

/-- A node-number vector wrapped the way an array lookup wraps it: entries below zero get 50000 added. -/
def wrapIdx (v : (⟨S690000, .i32⟩ : BufTy).Contents (Elt F)) : (⟨S690000x1, .i32⟩ : BufTy).Contents (Elt F) :=
  broadcastInDim S690000x1 ![0] bcast_S690000_S690000x1_0
    (select (cmpi .slt v (broadcastInDim S690000 ![] bcast_S_S690000 (constantI S_ 32 0#32)))
      (addi v (broadcastInDim S690000 ![] bcast_S_S690000 (constantI S_ 32 50000#32))) v)

/-- The sources: row 0 of the edge list, then the self-loops. -/
def srcOf (ei : (⟨S2x640000, .i32⟩ : BufTy).Contents (Elt F)) : (⟨S690000, .i32⟩ : BufTy).Contents (Elt F) :=
  concatenate S690000 0 [⟨S640000, shapeCast S640000 (extractStridedSlice S1x640000 ![0, 0] ei slices_S2x640000_S1x640000_0_0) shapeCasts_S1x640000_S640000⟩,
    ⟨S50000, iotaInDim S50000 32 0⟩] concatenates_S640000_S50000_S690000_d0

/-- The destinations: row 1 of the edge list, then the self-loops. -/
def dstOf (ei : (⟨S2x640000, .i32⟩ : BufTy).Contents (Elt F)) : (⟨S690000, .i32⟩ : BufTy).Contents (Elt F) :=
  concatenate S690000 0 [⟨S640000, shapeCast S640000 (extractStridedSlice S1x640000 ![1, 0] ei slices_S2x640000_S1x640000_1_0) shapeCasts_S1x640000_S640000⟩,
    ⟨S50000, iotaInDim S50000 32 0⟩] concatenates_S640000_S50000_S690000_d0

/-- How often each node is a destination. -/
def degOf (dst : (⟨S690000, .i32⟩ : BufTy).Contents (Elt F)) : (⟨S50000, .f32⟩ : BufTy).Contents (Elt F) :=
  Host.scatterAdd scatter_S50000_S690000x1_S690000_n_0_0_1
    (broadcastInDim S50000 ![] bcast_S_S50000 (constant S_ .f32 0x00000000#32))
    (broadcastInDim S690000x1 ![0] bcast_S690000_S690000x1_0 dst)
    (broadcastInDim S690000 ![] bcast_S_S690000 (constant S_ .f32 0x3F800000#32))

/-- 1 / sqrt (max deg 1) where deg > 0, zero elsewhere. -/
def disOf (deg : (⟨S50000, .f32⟩ : BufTy).Contents (Elt F)) : (⟨S50000, .f32⟩ : BufTy).Contents (Elt F) :=
  select (cmpf .ogt deg (broadcastInDim S50000 ![] bcast_S_S50000 (constant S_ .f32 0x00000000#32)))
    (Host.rsqrt (maximumf deg (broadcastInDim S50000 ![] bcast_S_S50000 (constant S_ .f32 0x3F800000#32))))
    (broadcastInDim S50000 ![] bcast_S_S50000 (id (constant S_ .f32 0x00000000#32)))

/-- Each edge's weight: dis at its source times dis at its destination. -/
def normOf (dis : (⟨S50000, .f32⟩ : BufTy).Contents (Elt F)) (src dst : (⟨S690000, .i32⟩ : BufTy).Contents (Elt F)) :
    (⟨S690000, .f32⟩ : BufTy).Contents (Elt F) :=
  mulf (Host.gather gather_S50000_S690000x1_S690000_n_0_n_n_0_1_1 dis (wrapIdx src))
    (Host.gather gather_S50000_S690000x1_S690000_n_0_n_n_0_1_1 dis (wrapIdx dst))

/-- Each edge's message: its source's row of xw times its weight. -/
def msgsOf (xw : (⟨S50000x128, .f32⟩ : BufTy).Contents (Elt F)) (src : (⟨S690000, .i32⟩ : BufTy).Contents (Elt F))
    (norm : (⟨S690000, .f32⟩ : BufTy).Contents (Elt F)) : (⟨S690000x128, .f32⟩ : BufTy).Contents (Elt F) :=
  mulf (Host.gather gather_S50000x128_S690000x1_S690000x128_1_0_n_n_0_1_1128 xw (wrapIdx src))
    (broadcastInDim S690000x128 ![0, 1] bcast_S690000x1_S690000x128_0_1
      (broadcastInDim S690000x1 ![0] bcast_S690000_S690000x1_0 norm))

/-- The aggregation: the messages scatter-added into zeros at their destinations. -/
def aggChain (xw : (⟨S50000x128, .f32⟩ : BufTy).Contents (Elt F)) (ei : (⟨S2x640000, .i32⟩ : BufTy).Contents (Elt F)) :
    (⟨S50000x128, .f32⟩ : BufTy).Contents (Elt F) :=
  Host.scatterAdd scatter_S50000x128_S690000x1_S690000x128_1_0_0_1
    (broadcastInDim S50000x128 ![] bcast_S_S50000x128 (constant S_ .f32 0x00000000#32))
    (broadcastInDim S690000x1 ![0] bcast_S690000_S690000x1_0 (dstOf ei))
    (msgsOf xw (srcOf ei) (normOf (disOf (degOf (dstOf ei))) (srcOf ei) (dstOf ei)))

end Cert.KernelIdeal.Val

end
-- ==== Proof.KHost.lean ====
/-
  What the host stretches between the kernel regions leave in the buffers the next region reads, as terms of what the
  region before left. Between the first and the second region: the neighbourhood aggregation of the projected features
  (the shared chain; read in three steps, as the stretch is cut at the call of the selection that makes the inverse
  square-root degrees) and the bias as a one-row array. Between the second and the third: the column means (the sums over
  50000), the reciprocal deviation 1 / sqrt (mean of squares − squared mean + ε), and the two normalisation vectors as
  one-row arrays. A buffer no operation of a stretch writes is as the stretch found it.
-/
import proofs.«148279_j47321949667549_1_alg».proof.Proof.Gen.KernelIdeal.Frame
import proofs.«148279_j47321949667549_1_alg».proof.Proof.AggChain

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The first region's exit: the arguments it does not stage are as launched -/

theorem W1_arg1 (c : Dev nD) : W1 m ρ c (Proc.devRef .tc main_arg1) = m ((c : Thread nD τ).loc main_arg1) :=
  (W1_of_ne m ρ c main_arg1 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W1_arg5 (c : Dev nD) : W1 m ρ c (Proc.devRef .tc main_arg5) = m ((c : Thread nD τ).loc main_arg5) :=
  (W1_of_ne m ρ c main_arg5 (by decide)).trans rfl

/-! ## The stretch between the first and the second region, in its three parts -/

/-- The aggregation from the projected features, the sources, the destinations and the inverse square-root degrees. -/
def aggFrom (xw : (⟨S50000x128, .f32⟩ : BufTy).Contents (Elt F)) (src dst : (⟨S690000, .i32⟩ : BufTy).Contents (Elt F))
    (dis : (⟨S50000, .f32⟩ : BufTy).Contents (Elt F)) : (⟨S50000x128, .f32⟩ : BufTy).Contents (Elt F) :=
  Host.scatterAdd scatter_S50000x128_S690000x1_S690000x128_1_0_0_1
    (broadcastInDim S50000x128 ![] Facts₀.bcast_S_S50000x128 (constant S_ .f32 0x00000000#32))
    (broadcastInDim S690000x1 ![0] Facts₀.bcast_S690000_S690000x1_0 dst)
    (msgsOf xw src (normOf dis src dst))

theorem aggChain_eq (xw : (⟨S50000x128, .f32⟩ : BufTy).Contents (Elt F)) (ei : (⟨S2x640000, .i32⟩ : BufTy).Contents (Elt F)) :
    aggChain xw ei = aggFrom xw (srcOf ei) (dstOf ei) (disOf (degOf (dstOf ei))) := rfl

/-- Part one (up to the selection's call): the sources, the destinations, the two operands of the selection. -/
theorem src_W2 (c : Dev nD) : W2 m ρ c (Proc.devRef .tc main_v6) = srcOf (W1 m ρ c (Proc.devRef .tc main_arg1)) := by
  show StableHlo.after hostOps1 (W1 m ρ c) _ = _
  generalize W1 m ρ c = V1
  simp only [hostOps1]
  after_results
  rfl
theorem dst_W2 (c : Dev nD) : W2 m ρ c (Proc.devRef .tc main_v7) = dstOf (W1 m ρ c (Proc.devRef .tc main_arg1)) := by
  show StableHlo.after hostOps1 (W1 m ρ c) _ = _
  generalize W1 m ρ c = V1
  simp only [hostOps1]
  after_results
  rfl
theorem mask_W2 (c : Dev nD) : W2 m ρ c (Proc.devRef .tc main_v13) =
    cmpf .ogt (degOf (dstOf (W1 m ρ c (Proc.devRef .tc main_arg1))))
      (broadcastInDim S50000 ![] Facts₀.bcast_S_S50000 (constant S_ .f32 0x00000000#32)) := by
  show StableHlo.after hostOps1 (W1 m ρ c) _ = _
  generalize W1 m ρ c = V1
  simp only [hostOps1]
  after_results
  rfl
theorem rsq_W2 (c : Dev nD) : W2 m ρ c (Proc.devRef .tc main_v16) =
    Host.rsqrt (maximumf (degOf (dstOf (W1 m ρ c (Proc.devRef .tc main_arg1))))
      (broadcastInDim S50000 ![] Facts₀.bcast_S_S50000 (constant S_ .f32 0x3F800000#32))) := by
  show StableHlo.after hostOps1 (W1 m ρ c) _ = _
  generalize W1 m ρ c = V1
  simp only [hostOps1]
  after_results
  rfl
theorem zero_W2 (c : Dev nD) : W2 m ρ c (Proc.devRef .tc main_cst_3) = constant S_ .f32 0x00000000#32 := by
  show StableHlo.after hostOps1 (W1 m ρ c) _ = _
  generalize W1 m ρ c = V1
  simp only [hostOps1]
  after_results
theorem xw_W2 (c : Dev nD) : W2 m ρ c (Proc.devRef .tc main_v0) = W1 m ρ c (Proc.devRef .tc main_v0) := by
  show StableHlo.after hostOps1 (W1 m ρ c) _ = _
  generalize W1 m ρ c = V1
  simp only [hostOps1]
  after_results
theorem arg3_W2 (c : Dev nD) : W2 m ρ c (Proc.devRef .tc main_arg3) = W1 m ρ c (Proc.devRef .tc main_arg3) := by
  show StableHlo.after hostOps1 (W1 m ρ c) _ = _
  generalize W1 m ρ c = V1
  simp only [hostOps1]
  after_results
theorem arg4_W2 (c : Dev nD) : W2 m ρ c (Proc.devRef .tc main_arg4) = W1 m ρ c (Proc.devRef .tc main_arg4) := by
  show StableHlo.after hostOps1 (W1 m ρ c) _ = _
  generalize W1 m ρ c = V1
  simp only [hostOps1]
  after_results
theorem arg5_W2 (c : Dev nD) : W2 m ρ c (Proc.devRef .tc main_arg5) = W1 m ρ c (Proc.devRef .tc main_arg5) := by
  show StableHlo.after hostOps1 (W1 m ρ c) _ = _
  generalize W1 m ρ c = V1
  simp only [hostOps1]
  after_results

/-- Part two (the selection): the inverse square-root degrees. -/
theorem dis_W3 (c : Dev nD) : W3 m ρ c (Proc.devRef .tc main_v17) =
    select (W2 m ρ c (Proc.devRef .tc main_v13)) (W2 m ρ c (Proc.devRef .tc main_v16))
      (broadcastInDim S50000 ![] Facts₀.bcast_S_S50000 (id (W2 m ρ c (Proc.devRef .tc main_cst_3)))) := by
  show StableHlo.after hostOps1_1 (W2 m ρ c) _ = _
  generalize W2 m ρ c = V2
  simp only [hostOps1_1]
  after_results
  rfl
theorem keep_W3 (c : Dev nD) (b : Ref sig .tc) (h0 : b ≠ main_call0_v0) (h1 : b ≠ main_call0_v1) (h2 : b ≠ main_v17) :
    W3 m ρ c (Proc.devRef .tc b) = W2 m ρ c (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes, StableHlo.ternary_writes, StableHlo.TRef.unary, StableHlo.TRef.ternary, Finset.mem_singleton]
    exact ⟨StableHlo.devRef_ne_of_ne h0, StableHlo.devRef_ne_of_ne h1, StableHlo.devRef_ne_of_ne h2⟩))

set_option maxHeartbeats 4000000 in
/-- Part three: the aggregation from what parts one and two left. -/
theorem agg_W4 (c : Dev nD) : W4 m ρ c (Proc.devRef .tc main_v45) =
    aggFrom (W3 m ρ c (Proc.devRef .tc main_v0)) (W3 m ρ c (Proc.devRef .tc main_v6)) (W3 m ρ c (Proc.devRef .tc main_v7))
      (W3 m ρ c (Proc.devRef .tc main_v17)) := by
  show StableHlo.after hostOps1_2 (W3 m ρ c) _ = _
  generalize W3 m ρ c = V3
  simp only [hostOps1_2]
  after_results
  rfl
theorem bias_W4 (c : Dev nD) : W4 m ρ c (Proc.devRef .tc main_v46) =
    shapeCast S1x128 (W3 m ρ c (Proc.devRef .tc main_arg3)) Facts₀.shapeCasts_S128_S1x128 := by
  show StableHlo.after hostOps1_2 (W3 m ρ c) _ = _
  generalize W3 m ρ c = V3
  simp only [hostOps1_2]
  after_results
  rfl
theorem arg4_W4 (c : Dev nD) : W4 m ρ c (Proc.devRef .tc main_arg4) = W3 m ρ c (Proc.devRef .tc main_arg4) := by
  show StableHlo.after hostOps1_2 (W3 m ρ c) _ = _
  generalize W3 m ρ c = V3
  simp only [hostOps1_2]
  after_results
theorem arg5_W4 (c : Dev nD) : W4 m ρ c (Proc.devRef .tc main_arg5) = W3 m ρ c (Proc.devRef .tc main_arg5) := by
  show StableHlo.after hostOps1_2 (W3 m ρ c) _ = _
  generalize W3 m ρ c = V3
  simp only [hostOps1_2]
  after_results

/-- The second region's first operand: the aggregation of the first region's result over the edge list. -/
theorem agg_entry (c : Dev nD) :
    W4 m ρ c (Proc.devRef .tc main_v45) =
      aggChain (W1 m ρ c (Proc.devRef .tc main_v0)) (m ((c : Thread nD τ).loc main_arg1)) := by
  rw [agg_W4, dis_W3, keep_W3 m ρ c main_v0 (by decide) (by decide) (by decide),
    keep_W3 m ρ c main_v6 (by decide) (by decide) (by decide), keep_W3 m ρ c main_v7 (by decide) (by decide) (by decide),
    xw_W2, src_W2, dst_W2, mask_W2, rsq_W2, zero_W2, W1_arg1, aggChain_eq]
  rfl

/-- The second region's second operand: the bias as a one-row array. -/
theorem bias_entry (c : Dev nD) :
    W4 m ρ c (Proc.devRef .tc main_v46) =
      shapeCast S1x128 (m ((c : Thread nD τ).loc main_arg3)) Facts₀.shapeCasts_S128_S1x128 := by
  rw [bias_W4, keep_W3 m ρ c main_arg3 (by decide) (by decide) (by decide), arg3_W2, W1_arg3]

/-! ## The stretch between the second and the third region -/

/-- The column means: the second region's sums over 50000. -/
theorem mean_entry (c : Dev nD) :
    W6 m ρ c (Proc.devRef .tc main_v49) =
      Host.divf (W5 m ρ c (Proc.devRef .tc main_v47_1))
        (broadcastInDim S1x128 ![] Facts₀.bcast_S_S1x128 (constant S_ .f32 0x47435000#32)) := by
  show StableHlo.after hostOps2 (W5 m ρ c) _ = _
  generalize W5 m ρ c = V5
  simp only [hostOps2]
  after_results

/-- The reciprocal deviation: 1 / sqrt (mean of squares − squared mean + ε). -/
theorem rstd_entry (c : Dev nD) :
    W6 m ρ c (Proc.devRef .tc main_v56) =
      Host.rsqrt (addf
        (subf
          (Host.divf (W5 m ρ c (Proc.devRef .tc main_v47_2))
            (broadcastInDim S1x128 ![] Facts₀.bcast_S_S1x128 (constant S_ .f32 0x47435000#32)))
          (mulf
            (Host.divf (W5 m ρ c (Proc.devRef .tc main_v47_1))
              (broadcastInDim S1x128 ![] Facts₀.bcast_S_S1x128 (constant S_ .f32 0x47435000#32)))
            (Host.divf (W5 m ρ c (Proc.devRef .tc main_v47_1))
              (broadcastInDim S1x128 ![] Facts₀.bcast_S_S1x128 (constant S_ .f32 0x47435000#32)))))
        (broadcastInDim S1x128 ![] Facts₀.bcast_S_S1x128 (constant S_ .f32 0x3727C5AC#32))) := by
  show StableHlo.after hostOps2 (W5 m ρ c) _ = _
  generalize W5 m ρ c = V5
  simp only [hostOps2]
  after_results

/-- The scale vector as a one-row array. -/
theorem gamma_entry (c : Dev nD) :
    W6 m ρ c (Proc.devRef .tc main_v57) =
      shapeCast S1x128 (W5 m ρ c (Proc.devRef .tc main_arg4)) Facts₀.shapeCasts_S128_S1x128 := by
  show StableHlo.after hostOps2 (W5 m ρ c) _ = _
  generalize W5 m ρ c = V5
  simp only [hostOps2]
  after_results
  rfl

/-- The shift vector as a one-row array. -/
theorem beta_entry (c : Dev nD) :
    W6 m ρ c (Proc.devRef .tc main_v58) =
      shapeCast S1x128 (W5 m ρ c (Proc.devRef .tc main_arg5)) Facts₀.shapeCasts_S128_S1x128 := by
  show StableHlo.after hostOps2 (W5 m ρ c) _ = _
  generalize W5 m ρ c = V5
  simp only [hostOps2]
  after_results
  rfl

/-- The stretch does not write the activations. -/
theorem act_entry (c : Dev nD) :
    W6 m ρ c (Proc.devRef .tc main_v47_0) = W5 m ρ c (Proc.devRef .tc main_v47_0) := by
  show StableHlo.after hostOps2 (W5 m ρ c) _ = _
  generalize W5 m ρ c = V5
  simp only [hostOps2]
  after_results

/-- The second region leaves the two normalisation vectors as launched. -/
theorem W5_arg4 (c : Dev nD) : W5 m ρ c (Proc.devRef .tc main_arg4) = m ((c : Thread nD τ).loc main_arg4) := by
  rw [W5_of_ne m ρ c main_arg4 (by decide), arg4_W4, keep_W3 m ρ c main_arg4 (by decide) (by decide) (by decide), arg4_W2, W1_arg4]
theorem W5_arg5 (c : Dev nD) : W5 m ρ c (Proc.devRef .tc main_arg5) = m ((c : Thread nD τ).loc main_arg5) := by
  rw [W5_of_ne m ρ c main_arg5 (by decide), arg5_W4, keep_W3 m ρ c main_arg5 (by decide) (by decide) (by decide), arg5_W2, W1_arg5]

end Cert.KernelIdeal.Val

end
-- ==== Proof.Spec.lean ====
/-
  The mathematics both programs compute, index by index, on the extended reals.

  A graph-convolution layer followed by a leaky rectifier and a batch normalisation over the node axis:
  `proj x W` is the dense product of the node features with the weights; the degree-normalised neighbourhood
  aggregation is the same chain of host gathers and scatter-additions in both programs and is kept as that chain
  (it is named in the modules that read each program); `act` adds the bias and applies the leaky rectifier;
  `colSum` / `colSumSq` are the sums over the 50000 nodes of a column and of its squares; `meanOf` the column mean.
  The two programs differ in how they get the variance: one as the mean of squares minus the squared mean
  (`rstdMoments`), the other as the mean of the squared deviations from the mean (`rstdCentred`). On columns of real
  numbers these agree (`rstd_eq`): Σ (h − μ)² = Σ h² − 2 μ Σ h + N μ² and Σ h = N μ. The law needs the entries finite,
  since the expansion of the square distributes a product over a sum, which fails at the infinities.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- nodes × channels -/
abbrev SNC : Shape := ⟨2, ![50000, 128]⟩
/-- the weights -/
abbrev SKC : Shape := ⟨2, ![128, 128]⟩
/-- one row of channels -/
abbrev SRC : Shape := ⟨2, ![1, 128]⟩
/-- a vector of channels -/
abbrev SC : Shape := ⟨1, ![128]⟩

/-- the f32 zero -/
abbrev z0 : EReal := Ideal.ofBits .f32 0x00000000#32
/-- the rectifier's negative slope, the f32 nearest to 0.01 -/
abbrev slope : EReal := Ideal.ofBits .f32 0x3C23D70A#32
/-- the number of nodes as an f32, 50000 -/
abbrev cN : EReal := Ideal.ofBits .f32 0x47435000#32
/-- the normalisation's epsilon, the f32 nearest to 1e-5 -/
abbrev cEps : EReal := Ideal.ofBits .f32 0x3727C5AC#32

/-- Every entry is a real number (neither infinity). -/
def AllReal {ι : Type} (v : ι → EReal) : Prop := ∀ i, ∃ r : ℝ, v i = (r : EReal)

/-- The dense projection: entry (n, c) is the sum over k of x(n, k) · W(k, c). -/
def proj (x : FVec Ideal SNC .f32) (W : FVec Ideal SKC .f32) : FVec Ideal SNC .f32 :=
  fun i => ∑ k : Fin 128, x (ix2 (i 0) k) * W (ix2 k (i 1))

/-- The leaky rectifier on one extended real: a where a ≥ 0, slope · a elsewhere. -/
def leaky (a : EReal) : EReal := Scalar.select (Ideal.cmp .oge a z0) a (slope * a)

/-- Bias, then the leaky rectifier, entry by entry. -/
def act (agg : FVec Ideal SNC .f32) (b : Fin 128 → EReal) : FVec Ideal SNC .f32 :=
  fun i => leaky (agg i + b (i 1))

/-- The sum of column c over the 50000 nodes. -/
def colSum (h : FVec Ideal SNC .f32) (c : Fin 128) : EReal := ∑ n : Fin 50000, h (ix2 n c)

/-- The sum of the squares of column c over the 50000 nodes. -/
def colSumSq (h : FVec Ideal SNC .f32) (c : Fin 128) : EReal := ∑ n : Fin 50000, h (ix2 n c) * h (ix2 n c)

/-- The mean of column c. -/
def meanOf (h : FVec Ideal SNC .f32) (c : Fin 128) : EReal := Ideal.div (colSum h c) cN

/-- 1 / sqrt (variance + ε), the variance as the mean of squares minus the squared mean. -/
def rstdMoments (h : FVec Ideal SNC .f32) (c : Fin 128) : EReal :=
  Ideal.rsqrt ((Ideal.div (colSumSq h c) cN - meanOf h c * meanOf h c) + cEps)

/-- 1 / sqrt (variance + ε), the variance as the mean of the squared deviations from the mean. -/
def rstdCentred (h : FVec Ideal SNC .f32) (c : Fin 128) : EReal :=
  Ideal.rsqrt (Ideal.div (∑ n : Fin 50000, (h (ix2 n c) - meanOf h c) * (h (ix2 n c) - meanOf h c)) cN + cEps)

/-- The normalisation's last step: (γ · (h − μ)) · r + β, entry by entry, the channel vectors read at the column. -/
def affine (h : FVec Ideal SNC .f32) (mu r g be : Fin 128 → EReal) : FVec Ideal SNC .f32 :=
  fun i => (g (i 1) * (h i - mu (i 1))) * r (i 1) + be (i 1)

/-- A [1, 128] row read as a function of the channel. -/
abbrev row (v : FVec Ideal SRC .f32) : Fin 128 → EReal := fun k => v (ix2 (0 : Fin 1) k)

/-- A [128] vector read as a function of the channel. -/
abbrev vec (v : FVec Ideal SC .f32) : Fin 128 → EReal := fun k => v (ix1 k)

/-- The whole layer's result from the activations h. -/
def normalised (rstd : FVec Ideal SNC .f32 → Fin 128 → EReal) (h : FVec Ideal SNC .f32) (g be : Fin 128 → EReal) :
    FVec Ideal SNC .f32 :=
  affine h (meanOf h) (rstd h) g be

end Cert.Spec

end
-- ==== Proof.KRegion0.lean ====
/-
  The first kernel region: ten row blocks of 5000 nodes, each block of the result the matrix product of that block of the
  features with the whole weight matrix (the casts to bf16 on the way in are the identity on the extended reals, and the
  accumulator starts at zero). The blocks tile the result, so the array the region leaves is the dense projection.
-/
import proofs.«148279_j47321949667549_1_alg».proof.Proof.Gen.KernelIdeal.Frame
import proofs.«148279_j47321949667549_1_alg».proof.Proof.Spec
import Idealize.ShloMosaic.Lib.Pipeline.Value

set_option maxRecDepth 16384

noncomputable section

namespace Cert.KernelIdeal.Val

open Idealize.ShloMosaic Idealize.ShloMosaic.ValueIdx Idealize.ShloMosaic.TcCoe Idealize.SL.Sem
open Idealize.ShloMosaic.Pipeline (Dat Cfg Window)
open Cert.KernelIdeal Cert.KernelIdeal.Gen

/-! ## The block product at an entry -/

/-- The left operand is read at the result's row … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and at the contracted position; -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted position … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the result's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- One entry of the body's product of a block of features with the weights: the sum over the 128 inner positions. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]
  rfl

/-! ## From the blocks to the array -/

/-- The body's loads and its store are at offset zero of their buffers. -/
theorem hz : (![0, 0] : Fin 2 → Nat) = fun _ => 0 :=
  funext fun a => by match a with | ⟨0, _⟩ => rfl | ⟨1, _⟩ => rfl

/-- Rows `5000·T … 5000·T + 4999` of the features (`x0`), times the weights (`x1`), are the same rows of the projection:
    an entry of the block product is the entry of `Spec.proj` whose row is shifted by `5000·T`. -/
theorem blk_proj (X : Vec Ideal S50000x128 .f32) (W : Vec Ideal S128x128 .f32)
    (x0 : Vec Ideal S5000x128 .f32) (x1 : Vec Ideal S128x128 .f32) (T : Nat)
    (h0 : ∀ (y : S5000x128.Idx) (i : S50000x128.Idx), (i 0).val = T * 5000 + (y 0).val → (i 1).val = (y 1).val → x0 y = X i)
    (h1 : ∀ y : S128x128.Idx, x1 y = W y)
    (j : S5000x128.Idx) (i : S50000x128.Idx) (hi0 : (i 0).val = T * 5000 + (j 0).val) (hi1 : (i 1).val = (j 1).val) :
    k0_pay1 (F := Ideal) x0 x1 j = Cert.Spec.proj X W i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [pay_apply]
  unfold Cert.Spec.proj
  refine Finset.sum_congr rfl fun k _ => ?_
  rw [h0 (ix2 p k) (ix2 r k) hi0 rfl, h1]

variable (V : (c : Dev nD) → (b : Ref sig .tc) → Buf (Elt Ideal) ((c : Thread nD τ).loc b))

/-- The features and the weights as the region finds them. -/
abbrev xarr (c : Dev nD) : Vec Ideal S50000x128 .f32 := V c main_arg0
abbrev warr (c : Dev nD) : Vec Ideal S128x128 .f32 := V c main_arg2

/-- The index maps over the grid: the features' and the result's block at point `t` is row block `t`, the weights' block
    is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection. -/
theorem flushed_eq (c : Dev nD) (t : Fin cfg0.N) :
    (dat0 (F := Ideal) V c).flushed 2 t
      = ((cfg0.win 2).blk t).view.read (Elt Ideal) (Cert.Spec.proj (xarr V c) (warr V c)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  show k0_pay1 (F := Ideal) (iblk0 V c 0 t) (iblk0 V c 1 t) j
    = Cert.Spec.proj (xarr V c) (warr V c) (((cfg0.win 2).blk t).view.emb j)
  refine blk_proj (xarr V c) (warr V c) (iblk0 V c 0 t) (iblk0 V c 1 t) t.val ?_ ?_ j
    (((cfg0.win 2).blk t).view.emb j) ?_ ?_
  · intro y i hy0 hy1
    show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An entry of the result is in point `t`'s block iff each of its coordinates is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every one of the ten row blocks is some point's. -/
theorem idx_onto : ∀ b : Fin 10, ∃ t : Fin cfg0.N, win0_2.index t (0 : Fin 2) = b.val ∧ win0_2.index t (1 : Fin 2) = 0 :=
  (by decide +kernel : ∀ b : Fin 10, ∃ t : Fin grid0.N, win0_2.index t (0 : Fin 2) = b.val ∧ win0_2.index t (1 : Fin 2) = 0)

/-- The ten blocks tile the result: row `r` lies in row block `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := idx_onto ⟨(i 0).val / 5000, by omega⟩
  have q0' : win0_2.index t (0 : Fin 2) = (i 0).val / 5000 := q0
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The array region 0 leaves is `Spec.proj` of the features and the weights as the region finds them. -/
theorem proj_array (c : Dev nD) :
    (dat0 (F := Ideal) V c).arrAt 2 cfg0.N = Cert.Spec.proj (V c main_arg0) (V c main_arg2) :=
  (dat0 (F := Ideal) V c).arrAt_eq_of_cover 2 (Cert.Spec.proj (xarr V c) (warr V c)) (fun t _ => flushed_eq V c t) cover

end Cert.KernelIdeal.Val

end
-- ==== Proof.KRegion1.lean ====
/-
  The second kernel region: ten row blocks of 5000 nodes. Each point adds the bias row to its block of the aggregate,
  applies the leaky rectifier and writes the block out; two one-row outputs are revisited by every point: reset to zero at
  the first point, then each point adds its block's column sums (of the activations, and of their squares). After the last
  point they hold the column sums over all 50000 nodes: the ten partial sums regroup one sum over the nodes.

  In order: what each control case leaves in each output, as the body's arithmetic of the loaded blocks; that arithmetic
  read at one entry (the rectifier of entry plus bias; the old row plus a sum over the block's 5000 rows); a block's row p
  at point t is row 5000 t + p of the array, so the block of activations is a block of the array of activations; by
  induction on the point, the one-row outputs hold the sums over the rows of the blocks seen so far; a row of 50000 is a
  block of ten and a row of 5000 inside it, so the ten block sums are the whole column sum; last, the arrays: the
  activations block by block (row r lies in block r / 5000), the two rows from the single write-back after point 9.
-/
import proofs.«148279_j47321949667549_1_alg».proof.Proof.Gen.KernelIdeal.Frame
import proofs.«148279_j47321949667549_1_alg».proof.Proof.Spec
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

namespace Cert.KernelIdeal.Val

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The activations region 1 computes from the arrays it finds: the aggregate in window 0, the bias row in window 1. -/
abbrev actOf (c : Dev nD) : FVec Ideal Cert.Spec.SNC .f32 :=
  Cert.Spec.act (V c main_v45) (Cert.Spec.row (V c main_v46))

namespace Region1

/-! ## What each control case leaves in each output -/
section pieces
variable {F : FTy → Type} [FloatOps F]

theorem hz2 : (![0, 0] : Fin 2 → Nat) = fun _ => 0 := funext fun a => by fin_cases a <;> rfl

theorem piece_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, View.ld_unit_zero (S := S5000x128) hz2, View.ld_unit_zero (S := S1x128) hz2]

theorem piece_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S5000x128) hz2, View.ld_unit_zero (S := S1x128) hz2]

theorem piece_B_4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S5000x128) hz2, View.ld_unit_zero (S := S1x128) hz2]

theorem piece_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz2]
  simp only [View.readAt_eq_ld, h1.read_unread, h2.read_unread, View.ld_unit_zero (S := S5000x128) hz2, View.ld_unit_zero (S := S1x128) hz2]

theorem piece_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]

theorem piece_A_4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]

end pieces

/-! ## The body's arithmetic at one entry -/

section payloads

/-- The index a sum over the rows inserts: row p, column q. -/
theorem lift_rows (h : S5000x128.Reduces [0] S128) (q : Fin 128) (p : Fin 5000) :
    h.lift (ix1 q) p = ix2 p q := by
  funext a
  match a with
  | ⟨0, _⟩ => exact Fin.ext rfl
  | ⟨1, _⟩ => exact Fin.ext rfl

/-- The column sums of a block, kept as a one-row array: entry (0, q) is the sum over the block's rows of column q. -/
theorem colsum_row_apply (v : FVec Ideal S5000x128 .f32) (hacc : (0x00000000#32 : BitVec 32) = 0x00000000#32) (u : Fin 1) (q : Fin 128) :
    shapeCast S1x128 (multiReduction (F := Ideal) .add [0] S128 v 0x00000000#32 reduces_S5000x128_S128 (.inl rfl) hacc)
        shapeCasts_S128_S1x128 (ix2 u q)
      = ∑ p : Fin 5000, v (ix2 p q) := by
  rw [shapeCast_a_1a_apply]
  refine (Ideal.multiReduction_add_single v _ reduces_S5000x128_S128 (.inl rfl) hacc (ix1 q)).trans ?_
  exact Finset.sum_congr rfl fun p _ => congrArg v (lift_rows _ q p)

/-- The activation payload at row p, column q: the leaky rectifier of the entry plus the bias of its column. -/
theorem pay3_apply (x : Vec Ideal S5000x128 .f32) (b : Vec Ideal S1x128 .f32) (p : Fin 5000) (q : Fin 128) :
    k1_pay3 (F := Ideal) x b (ix2 p q) = Cert.Spec.leaky (x (ix2 p q) + b (ix2 (0 : Fin 1) q)) := by
  unfold k1_pay3
  rw [select_apply, cmpf_apply, mulf_apply, addf_apply, broadcast_apply, broadcast_apply, shapeCast_self, shapeCast_self,
    broadcastTo_1b_ab_apply]
  rfl

/-- The running column sums after a block: the old row plus the block's column sums of the activations. -/
theorem pay4_apply (x : Vec Ideal S5000x128 .f32) (b old : Vec Ideal S1x128 .f32) (u : Fin 1) (q : Fin 128) :
    k1_pay4 (F := Ideal) x b old (ix2 u q)
      = old (ix2 u q) + ∑ p : Fin 5000, k1_pay3 (F := Ideal) x b (ix2 p q) := by
  unfold k1_pay4
  rw [addf_apply, shapeCast_self, colsum_row_apply]

/-- The running column sums of squares after a block: the old row plus the block's column sums of the squared activations. -/
theorem pay5_apply (x : Vec Ideal S5000x128 .f32) (b old : Vec Ideal S1x128 .f32) (u : Fin 1) (q : Fin 128) :
    k1_pay5 (F := Ideal) x b old (ix2 u q)
      = old (ix2 u q) + ∑ p : Fin 5000, k1_pay3 (F := Ideal) x b (ix2 p q) * k1_pay3 (F := Ideal) x b (ix2 p q) := by
  unfold k1_pay5
  rw [addf_apply, shapeCast_self, colsum_row_apply]
  rfl

/-- The two reset rows are zero everywhere. -/
theorem pay1_apply (j : S1x128.Idx) : (k1_pay1 (F := Ideal)) j = 0 := Ideal.ofBits_zero_f32
theorem pay2_apply (j : S1x128.Idx) : (k1_pay2 (F := Ideal)) j = 0 := Ideal.ofBits_zero_f32

end payloads

/-! ## Ten blocks of 5000 rows are the 50000 rows -/

section regroup

/-- Rows 5000 s … 5000 s + 4999 of a column of 50000 entries, summed (nothing past the tenth block). -/
def rowsSum (f : Fin 50000 → EReal) (s : ℕ) : EReal :=
  if h : s < 10 then ∑ p : Fin 5000, f ⟨5000 * s + p.val, by have := p.isLt; omega⟩ else 0

/-- The ten block sums regroup the sum over all 50000 rows: a row is a block and a row inside the block. -/
theorem sum_rows_blocks (f : Fin 50000 → EReal) : ∑ s ∈ Finset.range 10, rowsSum f s = ∑ r : Fin 50000, f r := by
  rw [← Fin.sum_univ_eq_sum_range (fun s => rowsSum f s) 10]
  have e : ∀ s : Fin 10, rowsSum f s.val = ∑ p : Fin 5000, f (finProdFinEquiv (s, p)) := fun s => by
    unfold rowsSum
    rw [dif_pos s.isLt]
    refine Finset.sum_congr rfl fun p _ => congrArg f (Fin.ext ?_)
    show 5000 * s.val + p.val = p.val + 5000 * s.val
    omega
  rw [Finset.sum_congr rfl fun s _ => e s]
  rw [← Fintype.sum_prod_type (f := fun x : Fin 10 × Fin 5000 => f (finProdFinEquiv x))]
  exact Equiv.sum_comp (finProdFinEquiv (m := 10) (n := 5000)) f

end regroup

/-! ## Blocks of the arrays, and the outputs after each point -/

/-- The aggregate as the region finds it, and the bias row, at their literal types. -/
abbrev xarr (c : Dev nD) : Vec Ideal S50000x128 .f32 := V c main_v45
abbrev barr (c : Dev nD) : Vec Ideal S1x128 .f32 := V c main_v46
/-- The aggregate's block and the bias row as point t's body loads them. -/
abbrev xblk (c : Dev nD) (t : Fin cfg1.N) : Vec Ideal S5000x128 .f32 := iblk1 V c 0 t
abbrev bblk (c : Dev nD) (t : Fin cfg1.N) : Vec Ideal S1x128 .f32 := iblk1 V c 1 t

/-- The block indices over the grid: the two block windows move down the rows with the point, the three one-row windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row p of point t's block of the aggregate is row 5000 t + p of the array. -/
theorem xblk_apply (c : Dev nD) (t : Fin cfg1.N) (p : Fin 5000) (q : Fin 128) (r : Fin 50000)
    (hr : r.val = 5000 * t.val + p.val) : xblk V c t (ix2 p q) = xarr V c (ix2 r q) := by
  obtain ⟨e0, e1, -⟩ := idx_facts1 t
  show V c main_v45 (((cfg1.win 0).blk t).view.emb (ix2 p q)) = V c main_v45 (ix2 r q)
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- The bias row's block is the bias row at every point. -/
theorem bblk_apply (c : Dev nD) (t : Fin cfg1.N) (u : Fin 1) (q : Fin 128) :
    bblk V c t (ix2 u q) = barr V c (ix2 (0 : Fin 1) q) := by
  obtain ⟨-, -, e0, e1, -⟩ := idx_facts1 t
  show V c main_v46 (((cfg1.win 1).blk t).view.emb (ix2 u q)) = V c main_v46 (ix2 (0 : Fin 1) q)
  congr 1
  funext a
  apply Fin.ext
  match a with
  | ⟨0, _⟩ => show win1_1.index t (0 : Fin 2) * 1 + 1 * u.val = 0; rw [e0]; omega
  | ⟨1, _⟩ => show win1_1.index t (1 : Fin 2) * 128 + 1 * q.val = q.val; rw [e1]; omega

/-- After every point, first or not, output 2's buffer holds the point's block of activations. -/
theorem outs_act (c : Dev nD) (t : Fin cfg1.N) :
    (outsAt1 V c t.val t.isLt).1 = k1_pay3 (F := Ideal) (xblk V c t) (bblk V c t) := by
  by_cases h0 : t.val % 10 = 0
  · rw [outsAt1_A V c t h0]
    dsimp only
    exact piece_A_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (xblk V c t) (bblk V c t)
  · rw [outsAt1_B V c t h0]
    dsimp only
    exact piece_B_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (xblk V c t) (bblk V c t)
      (outsAt1 V c (t.val - 1) (Nat.lt_of_le_of_lt (Nat.sub_le _ _) t.isLt)).2.1
      (outsAt1 V c (t.val - 1) (Nat.lt_of_le_of_lt (Nat.sub_le _ _) t.isLt)).2.2

/-- Row p of point t's block of activations is row 5000 t + p of the activations. -/
theorem act_blk_apply (c : Dev nD) (t : Fin cfg1.N) (p : Fin 5000) (q : Fin 128) (r : Fin 50000)
    (hr : r.val = 5000 * t.val + p.val) :
    k1_pay3 (F := Ideal) (xblk V c t) (bblk V c t) (ix2 p q) = actOf V c (ix2 r q) := by
  rw [pay3_apply, xblk_apply V c t p q r hr, bblk_apply V c t 0 q]
  rfl

/-- After point n the second output's row holds, in column q, the activations' column sum over the rows of blocks 0 … n. -/
theorem outs_sum (c : Dev nD) : ∀ (n : ℕ) (hn : n < cfg1.N) (u : Fin 1) (q : Fin 128),
    (outsAt1 V c n hn).2.1 (ix2 u q) = ∑ s ∈ Finset.range (n + 1), rowsSum (fun r => actOf V c (ix2 r q)) s
  | 0, hn, u, q => by
    rw [outsAt1_A V c ⟨0, hn⟩ rfl]
    dsimp only
    refine (congrFun (piece_A_3 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr rfl)
      (xblk V c ⟨0, hn⟩) (bblk V c ⟨0, hn⟩)) (ix2 u q)).trans ?_
    rw [pay4_apply, pay1_apply, zero_add, Finset.sum_range_one]
    unfold rowsSum
    rw [dif_pos (by decide : 0 < 10)]
    refine Finset.sum_congr rfl fun p _ => ?_
    rw [act_blk_apply V c ⟨0, hn⟩ p q ⟨5000 * 0 + p.val, by have := p.isLt; omega⟩ rfl]
  | n + 1, hn, u, q => by
    have hN : n + 1 < 10 := lt_of_lt_of_eq hn (show cfg1.N = 10 from N_1)
    have hB : ¬(⟨n + 1, hn⟩ : Fin cfg1.N).val % 10 = 0 := by dsimp only; omega
    rw [outsAt1_B V c ⟨n + 1, hn⟩ hB]
    dsimp only
    refine (congrFun (piece_B_3 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h))
      (xblk V c ⟨n + 1, hn⟩) (bblk V c ⟨n + 1, hn⟩)
      (outsAt1 V c ((⟨n + 1, hn⟩ : Fin cfg1.N).val - 1) (Nat.lt_of_le_of_lt (Nat.sub_le _ _) (⟨n + 1, hn⟩ : Fin cfg1.N).isLt)).2.1
      (outsAt1 V c ((⟨n + 1, hn⟩ : Fin cfg1.N).val - 1) (Nat.lt_of_le_of_lt (Nat.sub_le _ _) (⟨n + 1, hn⟩ : Fin cfg1.N).isLt)).2.2)
      (ix2 u q)).trans ?_
    rw [pay4_apply, Finset.sum_range_succ _ (n + 1)]
    refine congrArg₂ (· + ·) (outs_sum c n (Nat.lt_of_succ_lt hn) u q) ?_
    unfold rowsSum
    rw [dif_pos hN]
    refine Finset.sum_congr rfl fun p _ => ?_
    rw [act_blk_apply V c ⟨n + 1, hn⟩ p q ⟨5000 * (n + 1) + p.val, by have := p.isLt; omega⟩ rfl]

/-- After point n the third output's row holds, in column q, the squared activations' column sum over the rows of blocks 0 … n. -/
theorem outs_sumsq (c : Dev nD) : ∀ (n : ℕ) (hn : n < cfg1.N) (u : Fin 1) (q : Fin 128),
    (outsAt1 V c n hn).2.2 (ix2 u q) = ∑ s ∈ Finset.range (n + 1), rowsSum (fun r => actOf V c (ix2 r q) * actOf V c (ix2 r q)) s
  | 0, hn, u, q => by
    rw [outsAt1_A V c ⟨0, hn⟩ rfl]
    dsimp only
    refine (congrFun (piece_A_4 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr rfl)
      (xblk V c ⟨0, hn⟩) (bblk V c ⟨0, hn⟩)) (ix2 u q)).trans ?_
    rw [pay5_apply, pay2_apply, zero_add, Finset.sum_range_one]
    unfold rowsSum
    rw [dif_pos (by decide : 0 < 10)]
    refine Finset.sum_congr rfl fun p _ => ?_
    rw [act_blk_apply V c ⟨0, hn⟩ p q ⟨5000 * 0 + p.val, by have := p.isLt; omega⟩ rfl]
  | n + 1, hn, u, q => by
    have hN : n + 1 < 10 := lt_of_lt_of_eq hn (show cfg1.N = 10 from N_1)
    have hB : ¬(⟨n + 1, hn⟩ : Fin cfg1.N).val % 10 = 0 := by dsimp only; omega
    rw [outsAt1_B V c ⟨n + 1, hn⟩ hB]
    dsimp only
    refine (congrFun (piece_B_4 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h))
      (xblk V c ⟨n + 1, hn⟩) (bblk V c ⟨n + 1, hn⟩)
      (outsAt1 V c ((⟨n + 1, hn⟩ : Fin cfg1.N).val - 1) (Nat.lt_of_le_of_lt (Nat.sub_le _ _) (⟨n + 1, hn⟩ : Fin cfg1.N).isLt)).2.1
      (outsAt1 V c ((⟨n + 1, hn⟩ : Fin cfg1.N).val - 1) (Nat.lt_of_le_of_lt (Nat.sub_le _ _) (⟨n + 1, hn⟩ : Fin cfg1.N).isLt)).2.2)
      (ix2 u q)).trans ?_
    rw [pay5_apply, Finset.sum_range_succ _ (n + 1)]
    refine congrArg₂ (· + ·) (outs_sumsq c n (Nat.lt_of_succ_lt hn) u q) ?_
    unfold rowsSum
    rw [dif_pos hN]
    refine Finset.sum_congr rfl fun p _ => ?_
    rw [act_blk_apply V c ⟨n + 1, hn⟩ p q ⟨5000 * (n + 1) + p.val, by have := p.isLt; omega⟩ rfl]

/-! ## From the write-backs to the arrays -/

/-- What point t writes back to output 2 is block t of the activations: row p of the block is row 5000 t + p. -/
theorem flushed2_eq (c : Dev nD) (t : Fin cfg1.N) :
    (dat1 (F := Ideal) V c).flushed 2 t = ((cfg1.win 2).blk t).view.read (Elt Ideal) (actOf V c) := by
  have hN : t.val < 10 := lt_of_lt_of_eq t.isLt (show cfg1.N = 10 from N_1)
  obtain ⟨-, -, -, -, e0, e1, -⟩ := idx_facts1 t
  show (cfg1.win 2).cut (grid1.coords t) ((dat1 V c).after 2 t) = _
  rw [after1_2, outs_act]
  funext j
  obtain ⟨p, q, rfl⟩ : ∃ (p : Fin 5000) (q : Fin 128), j = ix2 p q := ⟨j 0, j 1, eq_ix2 j⟩
  refine (act_blk_apply V c t p q ⟨5000 * t.val + p.val, by have := p.isLt; omega⟩ rfl).trans ?_
  show actOf V c _ = actOf V c (((cfg1.win 2).blk t).view.emb (ix2 p q))
  congr 1
  funext a
  apply Fin.ext
  match a with
  | ⟨0, _⟩ => show 5000 * t.val + p.val = win1_2.index t (0 : Fin 2) * 5000 + 1 * p.val; rw [e0]; omega
  | ⟨1, _⟩ => show q.val = win1_2.index t (1 : Fin 2) * 128 + 1 * q.val; rw [e1]; omega

/-- Row r of the activations lies in the block of point r / 5000. -/
theorem cover2 (i : S50000x128.Idx) : ∃ t : Fin cfg1.N, (cfg1.win 2).flush t = true ∧ i ∈ ((cfg1.win 2).blk t).view.set := by
  have h0 : (i 0 : Nat) < 50000 := (i 0).isLt
  have h1 : (i 1 : Nat) < 128 := (i 1).isLt
  have hN : cfg1.N = 10 := N_1
  let t : Fin cfg1.N := ⟨(i 0 : Nat) / 5000, by rw [hN]; omega⟩
  obtain ⟨-, -, -, -, e0, e1, -⟩ := idx_facts1 t
  refine ⟨t, flush1_2 t, ?_⟩
  show i ∈ ((View.whole main_v47_0).slice (win1_2.rect t)).set
  rw [View.set_slice_whole, Rect.mem_set_unit]
  intro a
  match a with
  | ⟨0, _⟩ =>
    show win1_2.index t (0 : Fin 2) * 5000 ≤ (i 0 : Nat) ∧ (i 0 : Nat) < win1_2.index t (0 : Fin 2) * 5000 + 5000
    rw [e0]; show (i 0 : Nat) / 5000 * 5000 ≤ (i 0 : Nat) ∧ (i 0 : Nat) < (i 0 : Nat) / 5000 * 5000 + 5000; omega
  | ⟨1, _⟩ =>
    show win1_2.index t (1 : Fin 2) * 128 ≤ (i 1 : Nat) ∧ (i 1 : Nat) < win1_2.index t (1 : Fin 2) * 128 + 128
    rw [e1]; omega

/-- The one write-back of output 3, after the last point, writes the column sums: the window's only block is its whole array. -/
theorem flushed3_eq (c : Dev nD) (t : Fin cfg1.N) (hf : (cfg1.win 3).flush t = true) :
    (dat1 (F := Ideal) V c).flushed 3 t
      = ((cfg1.win 3).blk t).view.read (Elt Ideal) (fun j => Cert.Spec.colSum (actOf V c) (j 1)) := by
  have hN : t.val < 10 := lt_of_lt_of_eq t.isLt (show cfg1.N = 10 from N_1)
  have h9 : t.val = 9 := by have := (flush1_3 t).mp hf; omega
  obtain rfl : t = t1_9 := Fin.ext h9
  show (cfg1.win 3).cut (grid1.coords t1_9) ((dat1 V c).after 3 t1_9) = _
  rw [after1_3]
  have e : (outsAt1 V c t1_9.val t1_9.isLt).2.1 = (fun j : S1x128.Idx => Cert.Spec.colSum (actOf V c) (j 1)) := by
    funext j
    obtain ⟨u, q, rfl⟩ : ∃ (u : Fin 1) (q : Fin 128), j = ix2 u q := ⟨j 0, j 1, eq_ix2 j⟩
    refine (outs_sum V c 9 t1_9.isLt u q).trans ?_
    exact sum_rows_blocks _
  rw [e]
  have hz' : (fun a => win1_3.index t1_9 a * main_v47_1.ty.shape.size a) = fun _ => 0 := funext fun a => by fin_cases a <;> decide
  exact (Memref.read_access_unit_zero (Elt Ideal) main_v47_1 hz' (fun a => by rw [congrFun hz' a]; simp) _).symm

/-- The last point's block covers output 3's one-row array. -/
theorem cover3 (i : S1x128.Idx) : ∃ t : Fin cfg1.N, (cfg1.win 3).flush t = true ∧ i ∈ ((cfg1.win 3).blk t).view.set :=
  ⟨t1_9, (flush1_3 t1_9).mpr rfl, by
    show i ∈ ((View.whole main_v47_1).slice (win1_3.rect t1_9)).set
    rw [View.set_slice_whole, Rect.mem_set_unit]
    intro a
    have h0 : (i 0 : Nat) < 1 := (i 0).isLt
    have h1 : (i 1 : Nat) < 128 := (i 1).isLt
    match a with
    | ⟨0, _⟩ =>
      show win1_3.index t1_9 0 * win1_3.size 0 ≤ (i 0 : Nat) ∧ (i 0 : Nat) < win1_3.index t1_9 0 * win1_3.size 0 + win1_3.xsize (grid1.coords t1_9) 0
      rw [show win1_3.index t1_9 0 * win1_3.size 0 = 0 from by decide +kernel, show win1_3.xsize (grid1.coords t1_9) 0 = 1 from by decide +kernel]; omega
    | ⟨1, _⟩ =>
      show win1_3.index t1_9 1 * win1_3.size 1 ≤ (i 1 : Nat) ∧ (i 1 : Nat) < win1_3.index t1_9 1 * win1_3.size 1 + win1_3.xsize (grid1.coords t1_9) 1
      rw [show win1_3.index t1_9 1 * win1_3.size 1 = 0 from by decide +kernel, show win1_3.xsize (grid1.coords t1_9) 1 = 128 from by decide +kernel]; omega⟩

/-- The one write-back of output 4, after the last point, writes the column sums of squares: the window's only block is its whole array. -/
theorem flushed4_eq (c : Dev nD) (t : Fin cfg1.N) (hf : (cfg1.win 4).flush t = true) :
    (dat1 (F := Ideal) V c).flushed 4 t
      = ((cfg1.win 4).blk t).view.read (Elt Ideal) (fun j => Cert.Spec.colSumSq (actOf V c) (j 1)) := by
  have hN : t.val < 10 := lt_of_lt_of_eq t.isLt (show cfg1.N = 10 from N_1)
  have h9 : t.val = 9 := by have := (flush1_4 t).mp hf; omega
  obtain rfl : t = t1_9 := Fin.ext h9
  show (cfg1.win 4).cut (grid1.coords t1_9) ((dat1 V c).after 4 t1_9) = _
  rw [after1_4]
  have e : (outsAt1 V c t1_9.val t1_9.isLt).2.2 = (fun j : S1x128.Idx => Cert.Spec.colSumSq (actOf V c) (j 1)) := by
    funext j
    obtain ⟨u, q, rfl⟩ : ∃ (u : Fin 1) (q : Fin 128), j = ix2 u q := ⟨j 0, j 1, eq_ix2 j⟩
    refine (outs_sumsq V c 9 t1_9.isLt u q).trans ?_
    exact sum_rows_blocks _
  rw [e]
  have hz' : (fun a => win1_4.index t1_9 a * main_v47_2.ty.shape.size a) = fun _ => 0 := funext fun a => by fin_cases a <;> decide
  exact (Memref.read_access_unit_zero (Elt Ideal) main_v47_2 hz' (fun a => by rw [congrFun hz' a]; simp) _).symm

/-- The last point's block covers output 4's one-row array. -/
theorem cover4 (i : S1x128.Idx) : ∃ t : Fin cfg1.N, (cfg1.win 4).flush t = true ∧ i ∈ ((cfg1.win 4).blk t).view.set :=
  ⟨t1_9, (flush1_4 t1_9).mpr rfl, by
    show i ∈ ((View.whole main_v47_2).slice (win1_4.rect t1_9)).set
    rw [View.set_slice_whole, Rect.mem_set_unit]
    intro a
    have h0 : (i 0 : Nat) < 1 := (i 0).isLt
    have h1 : (i 1 : Nat) < 128 := (i 1).isLt
    match a with
    | ⟨0, _⟩ =>
      show win1_4.index t1_9 0 * win1_4.size 0 ≤ (i 0 : Nat) ∧ (i 0 : Nat) < win1_4.index t1_9 0 * win1_4.size 0 + win1_4.xsize (grid1.coords t1_9) 0
      rw [show win1_4.index t1_9 0 * win1_4.size 0 = 0 from by decide +kernel, show win1_4.xsize (grid1.coords t1_9) 0 = 1 from by decide +kernel]; omega
    | ⟨1, _⟩ =>
      show win1_4.index t1_9 1 * win1_4.size 1 ≤ (i 1 : Nat) ∧ (i 1 : Nat) < win1_4.index t1_9 1 * win1_4.size 1 + win1_4.xsize (grid1.coords t1_9) 1
      rw [show win1_4.index t1_9 1 * win1_4.size 1 = 0 from by decide +kernel, show win1_4.xsize (grid1.coords t1_9) 1 = 128 from by decide +kernel]; omega⟩

end Region1

/-- Output window 2's array after the region: the activations. -/
theorem act_array (c : Dev nD) : (dat1 (F := Ideal) V c).arrAt 2 cfg1.N = actOf V c :=
  (dat1 (F := Ideal) V c).arrAt_eq_of_cover 2 (actOf V c) (fun t _ => Region1.flushed2_eq V c t) Region1.cover2

/-- Output window 3's array after the region: the column sums of the activations. -/
theorem sum_array (c : Dev nD) :
    (dat1 (F := Ideal) V c).arrAt 3 cfg1.N = fun j => Cert.Spec.colSum (actOf V c) (j 1) :=
  (dat1 (F := Ideal) V c).arrAt_eq_of_cover 3 _ (Region1.flushed3_eq V c) Region1.cover3

/-- Output window 4's array after the region: the column sums of the squared activations. -/
theorem sumsq_array (c : Dev nD) :
    (dat1 (F := Ideal) V c).arrAt 4 cfg1.N = fun j => Cert.Spec.colSumSq (actOf V c) (j 1) :=
  (dat1 (F := Ideal) V c).arrAt_eq_of_cover 4 _ (Region1.flushed4_eq V c) Region1.cover4

end Cert.KernelIdeal.Val
end
-- ==== Proof.KRegion2.lean ====
/-
  The third kernel region: ten row blocks of 5000 nodes, each block of the result (γ · (h − μ)) · r + β with the four
  one-row operands broadcast down the block. The blocks tile the result.

  The steps: the body's arithmetic at an entry (row p, column q) of a block, every broadcast row read at its only row;
  the block of the activations at point t is rows 5000 t … 5000 t + 4999 of the array, and each one-row operand's block
  is the row itself at every point; so what point t writes back is block t of one function of the arrays, the affine
  map; row r of the result lies in the block of point r / 5000, so the ten blocks cover the array.
-/
import proofs.«148279_j47321949667549_1_alg».proof.Proof.Gen.KernelIdeal.Frame
import proofs.«148279_j47321949667549_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.ValueIdx Idealize.ShloMosaic.TcCoe Idealize.SL.Sem
open Idealize.ShloMosaic.Pipeline (Dat Cfg Window)
open Cert.KernelIdeal Cert.KernelIdeal.Gen

/-- The zero offset of a whole-buffer access. -/
private theorem zero_off : (![0, 0] : Fin 2 → Nat) = fun _ => 0 := funext fun a => by fin_cases a <;> rfl

/-- The body's arithmetic at row `p`, column `q` of a block: the γ row times the centred entry, times the
    reciprocal-deviation row, plus the β row; each one-row operand read at its only row. -/
private theorem affine_pay_apply (x0 : Vec Ideal S5000x128 .f32) (xg xm xr xb : Vec Ideal S1x128 .f32) (p : Fin 5000) (q : Fin 128) :
    k2_pay1 (F := Ideal) x0 xg xm xr xb (ix2 p q)
      = (xg (ix2 (0 : Fin 1) q) * (x0 (ix2 p q) - xm (ix2 (0 : Fin 1) q))) * xr (ix2 (0 : Fin 1) q) + xb (ix2 (0 : Fin 1) q) := by
  unfold k2_pay1
  simp only [shapeCast_self]
  rw [addf_apply, mulf_apply, mulf_apply, subf_apply]
  simp only [broadcastTo_1b_ab_apply]

/-- The printed index maps over the grid: the block windows sit at row block `t`, the one-row windows at their only block. -/
private theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

variable (V : (c : Dev nD) → (b : Ref sig .tc) → Buf (Elt Ideal) ((c : Thread nD τ).loc b))

/-- The activations as the region finds them, at their literal type. -/
private abbrev hArr (c : Dev nD) : Vec Ideal S50000x128 .f32 := V c main_v47_0
/-- The mean row, the reciprocal-deviation row, the γ row and the β row as the region finds them. -/
private abbrev muArr (c : Dev nD) : Vec Ideal S1x128 .f32 := V c main_v49
private abbrev rArr (c : Dev nD) : Vec Ideal S1x128 .f32 := V c main_v56
private abbrev gArr (c : Dev nD) : Vec Ideal S1x128 .f32 := V c main_v57
private abbrev bArr (c : Dev nD) : Vec Ideal S1x128 .f32 := V c main_v58

/-- The blocks the body loads at point `t`, at their literal types. -/
private abbrev hBlk (c : Dev nD) (t : Fin cfg2.N) : Vec Ideal S5000x128 .f32 := iblk2 V c 0 t
private abbrev muBlk (c : Dev nD) (t : Fin cfg2.N) : Vec Ideal S1x128 .f32 := iblk2 V c 1 t
private abbrev rBlk (c : Dev nD) (t : Fin cfg2.N) : Vec Ideal S1x128 .f32 := iblk2 V c 2 t
private abbrev gBlk (c : Dev nD) (t : Fin cfg2.N) : Vec Ideal S1x128 .f32 := iblk2 V c 3 t
private abbrev bBlk (c : Dev nD) (t : Fin cfg2.N) : Vec Ideal S1x128 .f32 := iblk2 V c 4 t

/-- Row `p` of the activations' block at point `t` is row `5000 t + p` of the array. -/
private theorem hBlk_apply (c : Dev nD) (t : Fin cfg2.N) (y : S5000x128.Idx) (i : S50000x128.Idx)
    (h0 : (i 0).val = 5000 * t.val + (y 0).val) (h1 : (i 1).val = (y 1).val) :
    hBlk V c t y = hArr V c i := by
  obtain ⟨⟨e0, e1⟩, -⟩ := idx_facts t
  show V c main_v47_0 (((cfg2.win 0).blk t).view.emb y) = V c main_v47_0 i
  refine congrArg _ (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- A one-row window's block at any point is the row itself. -/
private theorem muBlk_eq (c : Dev nD) (t : Fin cfg2.N) : muBlk V c t = muArr V c := by
  obtain ⟨-, ⟨e0, e1⟩, -⟩ := idx_facts t
  funext y
  show V c main_v49 (((cfg2.win 1).blk t).view.emb y) = V c main_v49 y
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

private theorem rBlk_eq (c : Dev nD) (t : Fin cfg2.N) : rBlk V c t = rArr V c := by
  obtain ⟨-, -, ⟨e0, e1⟩, -⟩ := idx_facts t
  funext y
  show V c main_v56 (((cfg2.win 2).blk t).view.emb y) = V c main_v56 y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

private theorem gBlk_eq (c : Dev nD) (t : Fin cfg2.N) : gBlk V c t = gArr V c := by
  obtain ⟨-, -, -, ⟨e0, e1⟩, -⟩ := idx_facts t
  funext y
  show V c main_v57 (((cfg2.win 3).blk t).view.emb y) = V c main_v57 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

private theorem bBlk_eq (c : Dev nD) (t : Fin cfg2.N) : bBlk V c t = bArr V c := by
  obtain ⟨-, -, -, -, ⟨e0, e1⟩, -⟩ := idx_facts t
  funext y
  show V c main_v58 (((cfg2.win 4).blk t).view.emb y) = V c main_v58 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The array the region leaves. -/
private abbrev affArr (c : Dev nD) : Vec Ideal S50000x128 .f32 :=
  Cert.Spec.affine (hArr V c) (Cert.Spec.row (muArr V c)) (Cert.Spec.row (rArr V c)) (Cert.Spec.row (gArr V c)) (Cert.Spec.row (bArr V c))

/-- The body's result at entry `y` of block `t` is the affine map at row `5000 t + y₀`, column `y₁`. -/
private theorem blk_point (c : Dev nD) (t : Fin cfg2.N) (y : S5000x128.Idx) (i : S50000x128.Idx)
    (h0 : (i 0).val = 5000 * t.val + (y 0).val) (h1 : (i 1).val = (y 1).val) :
    k2_pay1 (F := Ideal) (hBlk V c t) (gArr V c) (muArr V c) (rArr V c) (bArr V c) y = affArr V c i := by
  obtain ⟨p, q, rfl⟩ : ∃ (p : Fin 5000) (q : Fin 128), y = ix2 p q := ⟨y 0, y 1, eq_ix2 y⟩
  rw [affine_pay_apply, hBlk_apply V c t (ix2 p q) i h0 h1]
  have hq : i 1 = q := Fin.ext h1
  show _ = (gArr V c (ix2 (0 : Fin 1) (i 1)) * (hArr V c i - muArr V c (ix2 (0 : Fin 1) (i 1)))) * rArr V c (ix2 (0 : Fin 1) (i 1))
      + bArr V c (ix2 (0 : Fin 1) (i 1))
  rw [hq]

/-- What point `t` writes back is block `t` of the affine map of the arrays as the region finds them. -/
private theorem flushed_eq (c : Dev nD) (t : Fin cfg2.N) :
    (dat2 (F := Ideal) V c).flushed 5 t = ((cfg2.win 5).blk t).view.read (Elt Ideal) (affArr V c) := by
  show (cfg2.win 5).cut (grid2.coords t) ((dat2 V c).after 5 t) = _
  rw [after2_5]
  unfold out2_5
  rw [View.canon_unit_zero zero_off]
  simp only [View.ld_unit_zero (S := S5000x128) zero_off, View.ld_unit_zero (S := S1x128) zero_off]
  obtain ⟨-, -, -, -, -, ⟨e0, e1⟩⟩ := idx_facts t
  funext y
  show k2_pay1 (F := Ideal) (hBlk V c t) (gBlk V c t) (muBlk V c t) (rBlk V c t) (bBlk V c t) y = affArr V c (((cfg2.win 5).blk t).view.emb y)
  rw [muBlk_eq, rBlk_eq, gBlk_eq, bBlk_eq]
  refine blk_point V c t y _ ?_ ?_
  · show win2_5.index t (0 : Fin 2) * 5000 + 1 * (y 0).val = 5000 * t.val + (y 0).val; rw [e0]; omega
  · show win2_5.index t (1 : Fin 2) * 128 + 1 * (y 1).val = (y 1).val; rw [e1]; omega

/-- Row `r` of the result lies in the block of point `r / 5000`. -/
private theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨-, -, -, -, -, ⟨e0, e1⟩⟩ := idx_facts t
  refine ⟨t, flush2_5 t, ?_⟩
  show i ∈ ((View.whole main_v59).slice (win2_5.rect t)).set
  rw [View.set_slice_whole, Rect.mem_set_unit]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- The array region 2 leaves: `Spec.affine` of the activations and the four rows as the region finds them. -/
theorem affine_array (c : Dev nD) :
    (dat2 (F := Ideal) V c).arrAt 5 cfg2.N =
      Cert.Spec.affine (V c main_v47_0) (Cert.Spec.row (V c main_v49)) (Cert.Spec.row (V c main_v56))
        (Cert.Spec.row (V c main_v57)) (Cert.Spec.row (V c main_v58)) :=
  (dat2 (F := Ideal) V c).arrAt_eq_of_cover 5 (affArr V c) (fun t _ => flushed_eq V c t) covered

end Cert.KernelIdeal.Val

end
-- ==== Proof.KValue.lean ====
/-
  The idealized kernel program's result array as one function of its arguments: the three regions' arrays and the host
  stretches between them composed. The first region leaves the projection; the stretch after it the aggregation and the
  bias row; the second region the activations and their column sums and sums of squares; the stretch after it the means,
  the reciprocal deviation (variance as mean of squares minus squared mean) and the two normalisation rows; the third
  region the normalised result.
-/
import proofs.«148279_j47321949667549_1_alg».proof.Proof.KHost
import proofs.«148279_j47321949667549_1_alg».proof.Proof.KRegion0
import proofs.«148279_j47321949667549_1_alg».proof.Proof.KRegion1
import proofs.«148279_j47321949667549_1_alg».proof.Proof.KRegion2
import Idealize.ShloMosaic.Lib.ValueLayout
import Idealize.ShloMosaic.Lib.Pipeline.Value

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- A vector cast to a one-row array, read as a function of the channel, is the vector. -/
theorem row_shapeCast (v : FVec Ideal S128 .f32) (h : S128.ShapeCasts S1x128) :
    Cert.Spec.row (shapeCast S1x128 v h) = Cert.Spec.vec v :=
  funext fun k => shapeCast_a_1a_apply v h 0 k

/-- A float constant broadcast to a one-row array is that constant's value at every entry. -/
theorem bcast_const_apply (w : BitVec 32) (h : S_.BroadcastsInDim S1x128 (![] : Fin 0 → Fin S1x128.rank)) (j : S1x128.Idx) :
    broadcastInDim S1x128 ![] h (constant (F := Ideal) S_ .f32 w) j = Ideal.ofBits .f32 w :=
  (broadcastInDim_apply _ h _ j ix0 (fun a => a.elim0)).trans rfl

/-- The activations the program computes, of its arguments. -/
def hK (c : Dev nD) : FVec Ideal Cert.Spec.SNC .f32 :=
  Cert.Spec.act
    (aggChain (F := Ideal)
      (Cert.Spec.proj (m ((c : Thread nD τ).loc main_arg0)) (m ((c : Thread nD τ).loc main_arg2)))
      (m ((c : Thread nD τ).loc main_arg1)))
    (Cert.Spec.vec (m ((c : Thread nD τ).loc main_arg3)))

/-- After the first region its result array is the projection. -/
theorem xw_eq (c : Dev nD) :
    W1 m ρ c (Proc.devRef .tc main_v0) =
      Cert.Spec.proj (m ((c : Thread nD τ).loc main_arg0)) (m ((c : Thread nD τ).loc main_arg2)) :=
  (W1_arr m ρ c 2).trans (proj_array (V0 m ρ) c)

/-- The second region computes the activations `hK` from what the stretch before it left. -/
theorem actOf_eq (c : Dev nD) : actOf (V4 m ρ) c = hK m c := by
  show Cert.Spec.act (W4 m ρ c (Proc.devRef .tc main_v45)) (Cert.Spec.row (W4 m ρ c (Proc.devRef .tc main_v46))) = _
  rw [agg_entry, bias_entry, xw_eq, row_shapeCast]
  rfl

theorem act_eq (c : Dev nD) : W5 m ρ c (Proc.devRef .tc main_v47_0) = hK m c :=
  (W5_arr m ρ c 2).trans ((act_array (V4 m ρ) c).trans (actOf_eq m ρ c))

theorem sum_eq (c : Dev nD) :
    W5 m ρ c (Proc.devRef .tc main_v47_1) = fun j => Cert.Spec.colSum (hK m c) (j 1) :=
  (W5_arr m ρ c 3).trans ((sum_array (V4 m ρ) c).trans (by rw [actOf_eq]))

theorem sumsq_eq (c : Dev nD) :
    W5 m ρ c (Proc.devRef .tc main_v47_2) = fun j => Cert.Spec.colSumSq (hK m c) (j 1) :=
  (W5_arr m ρ c 4).trans ((sumsq_array (V4 m ρ) c).trans (by rw [actOf_eq]))

/-- The mean row the third region reads. -/
theorem mean_row (c : Dev nD) :
    Cert.Spec.row (W6 m ρ c (Proc.devRef .tc main_v49)) = Cert.Spec.meanOf (hK m c) := by
  funext k
  rw [mean_entry, sum_eq]
  show Ideal.div (Cert.Spec.colSum (hK m c) k) (broadcastInDim S1x128 ![] _ (constant (F := Ideal) S_ .f32 0x47435000#32) (ix2 (0 : Fin 1) k)) = _
  rw [bcast_const_apply]
  rfl

/-- The reciprocal-deviation row the third region reads. -/
theorem rstd_row (c : Dev nD) :
    Cert.Spec.row (W6 m ρ c (Proc.devRef .tc main_v56)) = Cert.Spec.rstdMoments (hK m c) := by
  funext k
  rw [rstd_entry, sum_eq, sumsq_eq]
  show Ideal.rsqrt ((Ideal.div (Cert.Spec.colSumSq (hK m c) k) (broadcastInDim S1x128 ![] _ (constant (F := Ideal) S_ .f32 0x47435000#32) (ix2 (0 : Fin 1) k))
      - Ideal.div (Cert.Spec.colSum (hK m c) k) (broadcastInDim S1x128 ![] _ (constant (F := Ideal) S_ .f32 0x47435000#32) (ix2 (0 : Fin 1) k))
        * Ideal.div (Cert.Spec.colSum (hK m c) k) (broadcastInDim S1x128 ![] _ (constant (F := Ideal) S_ .f32 0x47435000#32) (ix2 (0 : Fin 1) k)))
      + broadcastInDim S1x128 ![] _ (constant (F := Ideal) S_ .f32 0x3727C5AC#32) (ix2 (0 : Fin 1) k)) = _
  simp only [bcast_const_apply]
  rfl

theorem gamma_row (c : Dev nD) :
    Cert.Spec.row (W6 m ρ c (Proc.devRef .tc main_v57)) = Cert.Spec.vec (m ((c : Thread nD τ).loc main_arg4)) := by
  rw [gamma_entry, W5_arg4, row_shapeCast]

theorem beta_row (c : Dev nD) :
    Cert.Spec.row (W6 m ρ c (Proc.devRef .tc main_v58)) = Cert.Spec.vec (m ((c : Thread nD τ).loc main_arg5)) := by
  rw [beta_entry, W5_arg5, row_shapeCast]

/-- The result array after the last region: the layer of the specification, the variance in its moments form. -/
theorem result_eq (c : Dev nD) :
    W7 m ρ c (Proc.devRef .tc main_v59) =
      Cert.Spec.normalised Cert.Spec.rstdMoments (hK m c)
        (Cert.Spec.vec (m ((c : Thread nD τ).loc main_arg4))) (Cert.Spec.vec (m ((c : Thread nD τ).loc main_arg5))) := by
  refine (W7_arr m ρ c 5).trans ((affine_array (V6 m ρ) c).trans ?_)
  show Cert.Spec.affine (W6 m ρ c (Proc.devRef .tc main_v47_0)) (Cert.Spec.row (W6 m ρ c (Proc.devRef .tc main_v49)))
      (Cert.Spec.row (W6 m ρ c (Proc.devRef .tc main_v56))) (Cert.Spec.row (W6 m ρ c (Proc.devRef .tc main_v57)))
      (Cert.Spec.row (W6 m ρ c (Proc.devRef .tc main_v58))) = _
  rw [act_entry, act_eq, mean_row, rstd_row, gamma_row, beta_row]
  rfl

end Cert.KernelIdeal.Val

end
-- ==== Proof.RefTerm.lean ====
/-
  The reference program's result as one term of its argument arrays, stage by stage as its host operations compose:
  the dense product, the shared neighbourhood aggregation, the bias and the leaky rectifier, the column mean, the column
  variance as the mean of the squared deviations (divided by 50000 − 0, the subtracted zero a count of degrees of freedom
  converted from an integer, and guarded by a test that this divisor is positive), and the normalisation
  (γ · (h − μ)) · rsqrt (var + ε) + β with the channel vectors broadcast down the nodes.
-/
import proofs.«148279_j47321949667549_1_alg».proof.ReferenceIdeal
import proofs.«148279_j47321949667549_1_alg».proof.Proof.AggChain

noncomputable section

namespace Cert.ReferenceIdeal.RefValue

open Idealize.ShloMosaic Cert.ReferenceIdeal
open Facts₀ Facts

variable {F : FTy → Type} [FloatOps F] [Cert.ReferenceIdeal.Facts] [Cert.KernelIdeal.Facts]

/-- The dense product of the features with the weights. -/
def xwR (x : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none x W

/-- A channel vector broadcast down the 50000 nodes. -/
def bc2 (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- Bias, then the leaky rectifier. -/
def actR (agg : (⟨S50000x128, .f32⟩ : BufTy).Contents (Elt F)) (b : (⟨S128, .f32⟩ : BufTy).Contents (Elt F)) :
    (⟨S50000x128, .f32⟩ : BufTy).Contents (Elt F) :=
  select (cmpf .oge (addf agg (bc2 b)) (broadcastInDim S50000x128 ![] bcast_S_S50000x128 (constant S_ .f32 0x00000000#32)))
    (addf agg (bc2 b))
    (mulf (broadcastInDim S50000x128 ![] bcast_S_S50000x128 (constant S_ .f32 0x3C23D70A#32)) (addf agg (bc2 b)))

/-- The column sums over the nodes. -/
def sumR (h : (⟨S50000x128, .f32⟩ : BufTy).Contents (Elt F)) : (⟨S128, .f32⟩ : BufTy).Contents (Elt F) :=
  Host.reduceAdd h (constant S_ .f32 0x00000000#32) reducesTo_S50000x128_S128_d0 h_S_

/-- The column means. -/
def meanR (h : (⟨S50000x128, .f32⟩ : BufTy).Contents (Elt F)) : (⟨S128, .f32⟩ : BufTy).Contents (Elt F) :=
  Host.divf (sumR h) (broadcastInDim S128 ![] bcast_S_S128 (constant S_ .f32 0x47435000#32))

/-- The deviations from the column mean, the mean recomputed as a [1, 128] row and broadcast down the nodes. -/
def devR (h : (⟨S50000x128, .f32⟩ : BufTy).Contents (Elt F)) : (⟨S50000x128, .f32⟩ : BufTy).Contents (Elt F) :=
  subf h (broadcastInDim S50000x128 ![0, 1] bcast_S1x128_S50000x128_0_1
    (Host.divf (broadcastInDim S1x128 ![1] bcast_S128_S1x128_1 (sumR h))
      (broadcastInDim S1x128 ![] bcast_S_S1x128 (constant S_ .f32 0x47435000#32))))

/-- The divisor of the variance: 50000 minus the integer zero converted to a float. -/
def dofR : (⟨S_, .f32⟩ : BufTy).Contents (Elt F) :=
  subf (constant S_ .f32 0x47435000#32) (sitofp .f32 (constantI S_ 32 0#32))

/-- The column variances: the sums of the squared deviations over the divisor where the divisor is positive. -/
def varR (h : (⟨S50000x128, .f32⟩ : BufTy).Contents (Elt F)) : (⟨S128, .f32⟩ : BufTy).Contents (Elt F) :=
  select (broadcastInDim S128 ![] bcast_S_S128 (cmpf .ogt (dofR (F := F)) (constant S_ .f32 0x00000000#32)))
    (Host.divf (sumR (mulf (devR h) (devR h))) (broadcastInDim S128 ![] bcast_S_S128 (dofR (F := F))))
    (broadcastInDim S128 ![] bcast_S_S128 (id (constant S_ .f32 0x7FC00000#32)))

/-- The normalisation: (γ · (h − μ)) · rsqrt (var + ε) + β. -/
def outR (h : (⟨S50000x128, .f32⟩ : BufTy).Contents (Elt F)) (mean var g be : (⟨S128, .f32⟩ : BufTy).Contents (Elt F)) :
    (⟨S50000x128, .f32⟩ : BufTy).Contents (Elt F) :=
  addf (mulf (mulf (bc2 g) (subf h (bc2 mean)))
      (bc2 (Host.rsqrt (addf var (broadcastInDim S128 ![] bcast_S_S128 (constant S_ .f32 0x3727C5AC#32))))))
    (bc2 be)

/-- The activations: the leaky rectifier of the aggregated projection plus the bias. -/
def hR (x : (⟨S50000x128, .f32⟩ : BufTy).Contents (Elt F)) (ei : (⟨S2x640000, .i32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  actR (Cert.KernelIdeal.Val.aggChain (xwR x W) ei) b

/-- The reference's result of its six argument arrays. -/
def refTerm (x : (⟨S50000x128, .f32⟩ : BufTy).Contents (Elt F)) (ei : (⟨S2x640000, .i32⟩ : BufTy).Contents (Elt F))
    (W : (⟨S128x128, .f32⟩ : BufTy).Contents (Elt F)) (b g be : (⟨S128, .f32⟩ : BufTy).Contents (Elt F)) :
    (⟨S50000x128, .f32⟩ : BufTy).Contents (Elt F) :=
  outR (hR x ei W b) (meanR (hR x ei W b)) (varR (hR x ei W b)) g be

end Cert.ReferenceIdeal.RefValue

end
-- ==== Proof.RefRun.lean ====
/-
  The reference program's run: its @main is a straight line of host operations once the three outlined functions (two
  selections and the variance) are unfolded at their calls; every weakly fair execution terminates, the arguments end as
  launched, and the result buffer ends at the operations' composed term of the arguments.
-/
import proofs.«148279_j47321949667549_1_alg».proof.Proof.RefTerm
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal
open Facts₀ Facts

variable {F : FTy → Type} [FloatOps F] [Cert.ReferenceIdeal.Facts] [Cert.KernelIdeal.Facts]

set_option maxHeartbeats 40000000 in
/-- @main's operations in order, the three calls unfolded: the selection of the degree's inverse square root (the
    zero converted, broadcast, the select), the selection of the rectifier's two branches (one select), and the variance
    (nineteen operations, then its own selection of three). -/
abbrev ops : List (HloOp τ sig (Elt F)) :=
  [ StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v1 (iotaInDim S50000 32 0),
    StableHlo.unary main_arg1 main_v2 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v2 main_v3 rfl shapeCasts_S1x640000_S640000,
    StableHlo.binary main_v3 main_v1 main_v4 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.unary main_arg1 main_v5 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v5 main_v6 rfl shapeCasts_S1x640000_S640000,
    StableHlo.binary main_v6 main_v1 main_v7 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.nullary main_cst (constant S_ .f32 0x3F800000#32),
    StableHlo.unary main_cst main_v8 (broadcastInDim S690000 ![] bcast_S_S690000 : (⟨S_, .f32⟩ : BufTy).Contents (Elt F) → (⟨S690000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S690000x1 ![0] bcast_S690000_S690000x1_0 : (⟨S690000, .i32⟩ : BufTy).Contents (Elt F) → (⟨S690000x1, .i32⟩ : BufTy).Contents (Elt F)),
    StableHlo.ternary main_v9 main_v10 main_v8 main_v11 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v13 : StableHlo.TRef sig ⟨S50000, .i1⟩) (.of main_v16 : StableHlo.TRef sig ⟨S50000, .f32⟩) main_call0.v1 main_call0.v2 select,
    StableHlo.nullary main_c (constantI S_ 32 0#32),
    StableHlo.unary main_c main_v18 (broadcastInDim S690000 ![] bcast_S_S690000 : (⟨S_, .i32⟩ : BufTy).Contents (Elt F) → (⟨S690000, .i32⟩ : BufTy).Contents (Elt F)),
    StableHlo.binary main_v4 main_v18 main_v19 (cmpi .slt : (⟨S690000, .i32⟩ : BufTy).Contents (Elt F) → (⟨S690000, .i32⟩ : BufTy).Contents (Elt F) → (⟨S690000, .i1⟩ : BufTy).Contents (Elt F)),
    StableHlo.nullary main_c_4 (constantI S_ 32 50000#32),
    StableHlo.unary main_c_4 main_v20 (broadcastInDim S690000 ![] bcast_S_S690000 : (⟨S_, .i32⟩ : BufTy).Contents (Elt F) → (⟨S690000, .i32⟩ : BufTy).Contents (Elt F)),
    StableHlo.binary main_v4 main_v20 main_v21 (addi : (⟨S690000, .i32⟩ : BufTy).Contents (Elt F) → (⟨S690000, .i32⟩ : BufTy).Contents (Elt F) → (⟨S690000, .i32⟩ : BufTy).Contents (Elt F)),
    StableHlo.ternary main_v19 main_v21 main_v4 main_v22 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v22 main_v23 (broadcastInDim S690000x1 ![0] bcast_S690000_S690000x1_0 : (⟨S690000, .i32⟩ : BufTy).Contents (Elt F) → (⟨S690000x1, .i32⟩ : BufTy).Contents (Elt F)),
    StableHlo.binary main_v17 main_v23 main_v24 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.nullary main_c_5 (constantI S_ 32 0#32),
    StableHlo.unary main_c_5 main_v25 (broadcastInDim S690000 ![] bcast_S_S690000 : (⟨S_, .i32⟩ : BufTy).Contents (Elt F) → (⟨S690000, .i32⟩ : BufTy).Contents (Elt F)),
    StableHlo.binary main_v7 main_v25 main_v26 (cmpi .slt : (⟨S690000, .i32⟩ : BufTy).Contents (Elt F) → (⟨S690000, .i32⟩ : BufTy).Contents (Elt F) → (⟨S690000, .i1⟩ : BufTy).Contents (Elt F)),
    StableHlo.nullary main_c_6 (constantI S_ 32 50000#32),
    StableHlo.unary main_c_6 main_v27 (broadcastInDim S690000 ![] bcast_S_S690000 : (⟨S_, .i32⟩ : BufTy).Contents (Elt F) → (⟨S690000, .i32⟩ : BufTy).Contents (Elt F)),
    StableHlo.binary main_v7 main_v27 main_v28 (addi : (⟨S690000, .i32⟩ : BufTy).Contents (Elt F) → (⟨S690000, .i32⟩ : BufTy).Contents (Elt F) → (⟨S690000, .i32⟩ : BufTy).Contents (Elt F)),
    StableHlo.ternary main_v26 main_v28 main_v7 main_v29 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v29 main_v30 (broadcastInDim S690000x1 ![0] bcast_S690000_S690000x1_0 : (⟨S690000, .i32⟩ : BufTy).Contents (Elt F) → (⟨S690000x1, .i32⟩ : BufTy).Contents (Elt F)),
    StableHlo.binary main_v17 main_v30 main_v31 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.binary main_v24 main_v31 main_v32 (mulf : (⟨S690000, .f32⟩ : BufTy).Contents (Elt F) → (⟨S690000, .f32⟩ : BufTy).Contents (Elt F) → (⟨S690000, .f32⟩ : BufTy).Contents (Elt F)),
    StableHlo.nullary main_c_7 (constantI S_ 32 0#32),
    StableHlo.unary main_c_7 main_v33 (broadcastInDim S690000 ![] bcast_S_S690000 : (⟨S_, .i32⟩ : BufTy).Contents (Elt F) → (⟨S690000, .i32⟩ : BufTy).Contents (Elt F)),
    StableHlo.binary main_v4 main_v33 main_v34 (cmpi .slt : (⟨S690000, .i32⟩ : BufTy).Contents (Elt F) → (⟨S690000, .i32⟩ : BufTy).Contents (Elt F) → (⟨S690000, .i1⟩ : BufTy).Contents (Elt F)),
    StableHlo.nullary main_c_8 (constantI S_ 32 50000#32),
    StableHlo.unary main_c_8 main_v35 (broadcastInDim S690000 ![] bcast_S_S690000 : (⟨S_, .i32⟩ : BufTy).Contents (Elt F) → (⟨S690000, .i32⟩ : BufTy).Contents (Elt F)),
    StableHlo.binary main_v4 main_v35 main_v36 (addi : (⟨S690000, .i32⟩ : BufTy).Contents (Elt F) → (⟨S690000, .i32⟩ : BufTy).Contents (Elt F) → (⟨S690000, .i32⟩ : BufTy).Contents (Elt F)),
    StableHlo.ternary main_v34 main_v36 main_v4 main_v37 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v37 main_v38 (broadcastInDim S690000x1 ![0] bcast_S690000_S690000x1_0 : (⟨S690000, .i32⟩ : BufTy).Contents (Elt F) → (⟨S690000x1, .i32⟩ : BufTy).Contents (Elt F)),
    StableHlo.binary main_v0 main_v38 main_v39 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    StableHlo.unary main_v32 main_v40 (broadcastInDim S690000x1 ![0] bcast_S690000_S690000x1_0 : (⟨S690000, .f32⟩ : BufTy).Contents (Elt F) → (⟨S690000x1, .f32⟩ : BufTy).Contents (Elt F)),
    StableHlo.unary main_v40 main_v41 (broadcastInDim S690000x128 ![0, 1] bcast_S690000x1_S690000x128_0_1 : (⟨S690000x1, .f32⟩ : BufTy).Contents (Elt F) → (⟨S690000x128, .f32⟩ : BufTy).Contents (Elt F)),
    StableHlo.binary main_v39 main_v41 main_v42 (mulf : (⟨S690000x128, .f32⟩ : BufTy).Contents (Elt F) → (⟨S690000x128, .f32⟩ : BufTy).Contents (Elt F) → (⟨S690000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v7 main_v44 (broadcastInDim S690000x1 ![0] bcast_S690000_S690000x1_0 : (⟨S690000, .i32⟩ : BufTy).Contents (Elt F) → (⟨S690000x1, .i32⟩ : BufTy).Contents (Elt F)),
    StableHlo.ternary main_v43 main_v44 main_v42 main_v45 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.unary main_cst_10 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_11 (constant S_ .f32 0x3C23D70A#32),
    StableHlo.unary main_cst_11 main_v51 (broadcastInDim S50000x128 ![] bcast_S_S50000x128 : (⟨S_, .f32⟩ : BufTy).Contents (Elt F) → (⟨S50000x128, .f32⟩ : BufTy).Contents (Elt F)),
    StableHlo.binary main_v51 main_v48 main_v52 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v50 : StableHlo.TRef sig ⟨S50000x128, .i1⟩) (.of main_v48 : StableHlo.TRef sig ⟨S50000x128, .f32⟩) (.of main_v52 : StableHlo.TRef sig ⟨S50000x128, .f32⟩) main_call1.v0 select,
    StableHlo.nullary main_cst_12 (constant S_ .f32 0x00000000#32),
    StableHlo.binary main_v53 main_cst_12 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v53 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v53 : StableHlo.TRef sig ⟨S50000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v59 main_v60 (subf : (⟨S50000x128, .f32⟩ : BufTy).Contents (Elt F) → (⟨S50000x128, .f32⟩ : BufTy).Contents (Elt F) → (⟨S50000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v60 main_v63 (mulf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v64 (broadcastInDim S128 ![] bcast_S_S128 : (⟨S_, .f32⟩ : BufTy).Contents (Elt F) → (⟨S128, .f32⟩ : BufTy).Contents (Elt F)),
    StableHlo.binary main_v57 main_v64 main_v65 (addf : (⟨S128, .f32⟩ : BufTy).Contents (Elt F) → (⟨S128, .f32⟩ : BufTy).Contents (Elt F) → (⟨S128, .f32⟩ : BufTy).Contents (Elt F)),
    StableHlo.unary main_v65 main_v66 (Host.rsqrt : (⟨S128, .f32⟩ : BufTy).Contents (Elt F) → (⟨S128, .f32⟩ : BufTy).Contents (Elt F)),
    StableHlo.unary main_v66 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_arg5 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)) ]

set_option maxRecDepth 65536 in
set_option maxHeartbeats 4000000 in
/-- @main is that straight line: the functions' definitions unfolded at their calls, the sequencing reassociated. -/
theorem main_eq (c : Dev nD) : main (F := F) c = seq ops := by
  simp only [main, main_part0, main_part1, fn_where.body, fn_where_0.body, fn_var.body, fn_where_1.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., reshape_bufs_sub .., binary_bufs_sub .., unary_bufs_sub ..,
    reshape_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The aggregation's last step from the projected features, the sources, the destinations and the normalisers. -/
def aggOf (xw : (⟨S50000x128, .f32⟩ : BufTy).Contents (Elt F)) (src dst : (⟨S690000, .i32⟩ : BufTy).Contents (Elt F)) (dis : (⟨S50000, .f32⟩ : BufTy).Contents (Elt F)) :
    (⟨S50000x128, .f32⟩ : BufTy).Contents (Elt F) :=
  Host.scatterAdd scatter_S50000x128_S690000x1_S690000x128_1_0_0_1
    (broadcastInDim S50000x128 ![] bcast_S_S50000x128 (constant S_ .f32 0x00000000#32))
    (broadcastInDim S690000x1 ![0] bcast_S690000_S690000x1_0 dst)
    (Cert.KernelIdeal.Val.msgsOf xw src (Cert.KernelIdeal.Val.normOf dis src dst))

/-- Two lines' fold is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxHeartbeats 40000000 in
/-- The operations of stage 1 of @main's line. -/
abbrev ops1 : List (HloOp τ sig (Elt F)) :=
  [ StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v1 (iotaInDim S50000 32 0),
    StableHlo.unary main_arg1 main_v2 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v2 main_v3 rfl shapeCasts_S1x640000_S640000,
    StableHlo.binary main_v3 main_v1 main_v4 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.unary main_arg1 main_v5 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v5 main_v6 rfl shapeCasts_S1x640000_S640000,
    StableHlo.binary main_v6 main_v1 main_v7 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)) ]

set_option maxHeartbeats 40000000 in
/-- The operations of stage 2 of @main's line. -/
abbrev ops2 : List (HloOp τ sig (Elt F)) :=
  [ StableHlo.nullary main_cst (constant S_ .f32 0x3F800000#32),
    StableHlo.unary main_cst main_v8 (broadcastInDim S690000 ![] bcast_S_S690000 : (⟨S_, .f32⟩ : BufTy).Contents (Elt F) → (⟨S690000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S690000x1 ![0] bcast_S690000_S690000x1_0 : (⟨S690000, .i32⟩ : BufTy).Contents (Elt F) → (⟨S690000x1, .i32⟩ : BufTy).Contents (Elt F)),
    StableHlo.ternary main_v9 main_v10 main_v8 main_v11 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v13 : StableHlo.TRef sig ⟨S50000, .i1⟩) (.of main_v16 : StableHlo.TRef sig ⟨S50000, .f32⟩) main_call0.v1 main_call0.v2 select ]

set_option maxHeartbeats 40000000 in
/-- The operations of stage 3 of @main's line. -/
abbrev ops3 : List (HloOp τ sig (Elt F)) :=
  [ StableHlo.nullary main_c (constantI S_ 32 0#32),
    StableHlo.unary main_c main_v18 (broadcastInDim S690000 ![] bcast_S_S690000 : (⟨S_, .i32⟩ : BufTy).Contents (Elt F) → (⟨S690000, .i32⟩ : BufTy).Contents (Elt F)),
    StableHlo.binary main_v4 main_v18 main_v19 (cmpi .slt : (⟨S690000, .i32⟩ : BufTy).Contents (Elt F) → (⟨S690000, .i32⟩ : BufTy).Contents (Elt F) → (⟨S690000, .i1⟩ : BufTy).Contents (Elt F)),
    StableHlo.nullary main_c_4 (constantI S_ 32 50000#32),
    StableHlo.unary main_c_4 main_v20 (broadcastInDim S690000 ![] bcast_S_S690000 : (⟨S_, .i32⟩ : BufTy).Contents (Elt F) → (⟨S690000, .i32⟩ : BufTy).Contents (Elt F)),
    StableHlo.binary main_v4 main_v20 main_v21 (addi : (⟨S690000, .i32⟩ : BufTy).Contents (Elt F) → (⟨S690000, .i32⟩ : BufTy).Contents (Elt F) → (⟨S690000, .i32⟩ : BufTy).Contents (Elt F)),
    StableHlo.ternary main_v19 main_v21 main_v4 main_v22 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v22 main_v23 (broadcastInDim S690000x1 ![0] bcast_S690000_S690000x1_0 : (⟨S690000, .i32⟩ : BufTy).Contents (Elt F) → (⟨S690000x1, .i32⟩ : BufTy).Contents (Elt F)),
    StableHlo.binary main_v17 main_v23 main_v24 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.nullary main_c_5 (constantI S_ 32 0#32),
    StableHlo.unary main_c_5 main_v25 (broadcastInDim S690000 ![] bcast_S_S690000 : (⟨S_, .i32⟩ : BufTy).Contents (Elt F) → (⟨S690000, .i32⟩ : BufTy).Contents (Elt F)),
    StableHlo.binary main_v7 main_v25 main_v26 (cmpi .slt : (⟨S690000, .i32⟩ : BufTy).Contents (Elt F) → (⟨S690000, .i32⟩ : BufTy).Contents (Elt F) → (⟨S690000, .i1⟩ : BufTy).Contents (Elt F)),
    StableHlo.nullary main_c_6 (constantI S_ 32 50000#32),
    StableHlo.unary main_c_6 main_v27 (broadcastInDim S690000 ![] bcast_S_S690000 : (⟨S_, .i32⟩ : BufTy).Contents (Elt F) → (⟨S690000, .i32⟩ : BufTy).Contents (Elt F)),
    StableHlo.binary main_v7 main_v27 main_v28 (addi : (⟨S690000, .i32⟩ : BufTy).Contents (Elt F) → (⟨S690000, .i32⟩ : BufTy).Contents (Elt F) → (⟨S690000, .i32⟩ : BufTy).Contents (Elt F)),
    StableHlo.ternary main_v26 main_v28 main_v7 main_v29 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v29 main_v30 (broadcastInDim S690000x1 ![0] bcast_S690000_S690000x1_0 : (⟨S690000, .i32⟩ : BufTy).Contents (Elt F) → (⟨S690000x1, .i32⟩ : BufTy).Contents (Elt F)),
    StableHlo.binary main_v17 main_v30 main_v31 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.binary main_v24 main_v31 main_v32 (mulf : (⟨S690000, .f32⟩ : BufTy).Contents (Elt F) → (⟨S690000, .f32⟩ : BufTy).Contents (Elt F) → (⟨S690000, .f32⟩ : BufTy).Contents (Elt F)),
    StableHlo.nullary main_c_7 (constantI S_ 32 0#32),
    StableHlo.unary main_c_7 main_v33 (broadcastInDim S690000 ![] bcast_S_S690000 : (⟨S_, .i32⟩ : BufTy).Contents (Elt F) → (⟨S690000, .i32⟩ : BufTy).Contents (Elt F)),
    StableHlo.binary main_v4 main_v33 main_v34 (cmpi .slt : (⟨S690000, .i32⟩ : BufTy).Contents (Elt F) → (⟨S690000, .i32⟩ : BufTy).Contents (Elt F) → (⟨S690000, .i1⟩ : BufTy).Contents (Elt F)),
    StableHlo.nullary main_c_8 (constantI S_ 32 50000#32),
    StableHlo.unary main_c_8 main_v35 (broadcastInDim S690000 ![] bcast_S_S690000 : (⟨S_, .i32⟩ : BufTy).Contents (Elt F) → (⟨S690000, .i32⟩ : BufTy).Contents (Elt F)),
    StableHlo.binary main_v4 main_v35 main_v36 (addi : (⟨S690000, .i32⟩ : BufTy).Contents (Elt F) → (⟨S690000, .i32⟩ : BufTy).Contents (Elt F) → (⟨S690000, .i32⟩ : BufTy).Contents (Elt F)),
    StableHlo.ternary main_v34 main_v36 main_v4 main_v37 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v37 main_v38 (broadcastInDim S690000x1 ![0] bcast_S690000_S690000x1_0 : (⟨S690000, .i32⟩ : BufTy).Contents (Elt F) → (⟨S690000x1, .i32⟩ : BufTy).Contents (Elt F)),
    StableHlo.binary main_v0 main_v38 main_v39 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    StableHlo.unary main_v32 main_v40 (broadcastInDim S690000x1 ![0] bcast_S690000_S690000x1_0 : (⟨S690000, .f32⟩ : BufTy).Contents (Elt F) → (⟨S690000x1, .f32⟩ : BufTy).Contents (Elt F)),
    StableHlo.unary main_v40 main_v41 (broadcastInDim S690000x128 ![0, 1] bcast_S690000x1_S690000x128_0_1 : (⟨S690000x1, .f32⟩ : BufTy).Contents (Elt F) → (⟨S690000x128, .f32⟩ : BufTy).Contents (Elt F)),
    StableHlo.binary main_v39 main_v41 main_v42 (mulf : (⟨S690000x128, .f32⟩ : BufTy).Contents (Elt F) → (⟨S690000x128, .f32⟩ : BufTy).Contents (Elt F) → (⟨S690000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v7 main_v44 (broadcastInDim S690000x1 ![0] bcast_S690000_S690000x1_0 : (⟨S690000, .i32⟩ : BufTy).Contents (Elt F) → (⟨S690000x1, .i32⟩ : BufTy).Contents (Elt F)),
    StableHlo.ternary main_v43 main_v44 main_v42 main_v45 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)) ]

set_option maxHeartbeats 40000000 in
/-- The operations of stage 4 of @main's line. -/
abbrev ops4 : List (HloOp τ sig (Elt F)) :=
  [ StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.unary main_cst_10 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_11 (constant S_ .f32 0x3C23D70A#32),
    StableHlo.unary main_cst_11 main_v51 (broadcastInDim S50000x128 ![] bcast_S_S50000x128 : (⟨S_, .f32⟩ : BufTy).Contents (Elt F) → (⟨S50000x128, .f32⟩ : BufTy).Contents (Elt F)),
    StableHlo.binary main_v51 main_v48 main_v52 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v50 : StableHlo.TRef sig ⟨S50000x128, .i1⟩) (.of main_v48 : StableHlo.TRef sig ⟨S50000x128, .f32⟩) (.of main_v52 : StableHlo.TRef sig ⟨S50000x128, .f32⟩) main_call1.v0 select ]

set_option maxHeartbeats 40000000 in
/-- The operations of stage 5 of @main's line. -/
abbrev ops5 : List (HloOp τ sig (Elt F)) :=
  [ StableHlo.nullary main_cst_12 (constant S_ .f32 0x00000000#32),
    StableHlo.binary main_v53 main_cst_12 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v53 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v53 : StableHlo.TRef sig ⟨S50000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

set_option maxHeartbeats 40000000 in
/-- The operations of stage 6 of @main's line. -/
abbrev ops6 : List (HloOp τ sig (Elt F)) :=
  [ StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v59 main_v60 (subf : (⟨S50000x128, .f32⟩ : BufTy).Contents (Elt F) → (⟨S50000x128, .f32⟩ : BufTy).Contents (Elt F) → (⟨S50000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v60 main_v63 (mulf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v64 (broadcastInDim S128 ![] bcast_S_S128 : (⟨S_, .f32⟩ : BufTy).Contents (Elt F) → (⟨S128, .f32⟩ : BufTy).Contents (Elt F)),
    StableHlo.binary main_v57 main_v64 main_v65 (addf : (⟨S128, .f32⟩ : BufTy).Contents (Elt F) → (⟨S128, .f32⟩ : BufTy).Contents (Elt F) → (⟨S128, .f32⟩ : BufTy).Contents (Elt F)),
    StableHlo.unary main_v65 main_v66 (Host.rsqrt : (⟨S128, .f32⟩ : BufTy).Contents (Elt F) → (⟨S128, .f32⟩ : BufTy).Contents (Elt F)),
    StableHlo.unary main_v66 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_arg5 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)) ]

attribute [local irreducible] Host.gather Host.scatterAdd Host.reduceAdd concatenate in
set_option maxRecDepth 65536 in
/-- Stage 1: the dense product. -/
theorem xw1 (V : Valuation τ sig (Elt F)) :
    after ops1 V (main_v0 : DevRef τ sig) = xwR (V (main_arg0 : DevRef τ sig)) (V (main_arg2 : DevRef τ sig)) := by
  after_results
  rfl

attribute [local irreducible] Host.gather Host.scatterAdd Host.reduceAdd concatenate in
set_option maxRecDepth 65536 in
/-- Stage 1: the sources. -/
theorem src1 (V : Valuation τ sig (Elt F)) :
    after ops1 V (main_v4 : DevRef τ sig) = Cert.KernelIdeal.Val.srcOf (V (main_arg1 : DevRef τ sig)) := by
  after_results
  rfl

attribute [local irreducible] Host.gather Host.scatterAdd Host.reduceAdd concatenate in
set_option maxRecDepth 65536 in
/-- Stage 1: the destinations. -/
theorem dst1 (V : Valuation τ sig (Elt F)) :
    after ops1 V (main_v7 : DevRef τ sig) = Cert.KernelIdeal.Val.dstOf (V (main_arg1 : DevRef τ sig)) := by
  after_results
  rfl

set_option maxRecDepth 65536 in
theorem keep1_arg3 (V : Valuation τ sig (Elt F)) :
    after ops1 V (main_arg3 : DevRef τ sig) = V (main_arg3 : DevRef τ sig) := by
  after_results_simp

set_option maxRecDepth 65536 in
theorem keep1_arg4 (V : Valuation τ sig (Elt F)) :
    after ops1 V (main_arg4 : DevRef τ sig) = V (main_arg4 : DevRef τ sig) := by
  after_results_simp

set_option maxRecDepth 65536 in
theorem keep1_arg5 (V : Valuation τ sig (Elt F)) :
    after ops1 V (main_arg5 : DevRef τ sig) = V (main_arg5 : DevRef τ sig) := by
  after_results_simp

attribute [local irreducible] Host.gather Host.scatterAdd Host.reduceAdd concatenate in
set_option maxRecDepth 65536 in
/-- Stage 2: the degree and its guarded inverse square root. -/
theorem dis2 (V : Valuation τ sig (Elt F)) :
    after ops2 V (main_v17 : DevRef τ sig) = Cert.KernelIdeal.Val.disOf (Cert.KernelIdeal.Val.degOf (V (main_v7 : DevRef τ sig))) := by
  after_results_simp
  rfl

set_option maxRecDepth 65536 in
theorem keep2_v0 (V : Valuation τ sig (Elt F)) :
    after ops2 V (main_v0 : DevRef τ sig) = V (main_v0 : DevRef τ sig) := by
  after_results_simp

set_option maxRecDepth 65536 in
theorem keep2_v4 (V : Valuation τ sig (Elt F)) :
    after ops2 V (main_v4 : DevRef τ sig) = V (main_v4 : DevRef τ sig) := by
  after_results_simp

set_option maxRecDepth 65536 in
theorem keep2_v7 (V : Valuation τ sig (Elt F)) :
    after ops2 V (main_v7 : DevRef τ sig) = V (main_v7 : DevRef τ sig) := by
  after_results_simp

set_option maxRecDepth 65536 in
theorem keep2_arg3 (V : Valuation τ sig (Elt F)) :
    after ops2 V (main_arg3 : DevRef τ sig) = V (main_arg3 : DevRef τ sig) := by
  after_results_simp

set_option maxRecDepth 65536 in
theorem keep2_arg4 (V : Valuation τ sig (Elt F)) :
    after ops2 V (main_arg4 : DevRef τ sig) = V (main_arg4 : DevRef τ sig) := by
  after_results_simp

set_option maxRecDepth 65536 in
theorem keep2_arg5 (V : Valuation τ sig (Elt F)) :
    after ops2 V (main_arg5 : DevRef τ sig) = V (main_arg5 : DevRef τ sig) := by
  after_results_simp

attribute [local irreducible] Host.gather Host.scatterAdd Host.reduceAdd concatenate in
set_option maxRecDepth 65536 in
set_option maxHeartbeats 4000000 in
/-- Stage 3: the edge weights, the messages and their scatter-addition. -/
theorem agg3 (V : Valuation τ sig (Elt F)) :
    after ops3 V (main_v45 : DevRef τ sig) = aggOf (V (main_v0 : DevRef τ sig)) (V (main_v4 : DevRef τ sig)) (V (main_v7 : DevRef τ sig)) (V (main_v17 : DevRef τ sig)) := by
  after_results_simp
  rfl

set_option maxRecDepth 65536 in
theorem keep3_arg3 (V : Valuation τ sig (Elt F)) :
    after ops3 V (main_arg3 : DevRef τ sig) = V (main_arg3 : DevRef τ sig) := by
  after_results_simp

set_option maxRecDepth 65536 in
theorem keep3_arg4 (V : Valuation τ sig (Elt F)) :
    after ops3 V (main_arg4 : DevRef τ sig) = V (main_arg4 : DevRef τ sig) := by
  after_results_simp

set_option maxRecDepth 65536 in
theorem keep3_arg5 (V : Valuation τ sig (Elt F)) :
    after ops3 V (main_arg5 : DevRef τ sig) = V (main_arg5 : DevRef τ sig) := by
  after_results_simp

attribute [local irreducible] Host.gather Host.scatterAdd Host.reduceAdd concatenate in
set_option maxRecDepth 65536 in
/-- Stage 4: the bias and the leaky rectifier. -/
theorem act4 (V : Valuation τ sig (Elt F)) :
    after ops4 V (main_v53 : DevRef τ sig) = actR (V (main_v45 : DevRef τ sig)) (V (main_arg3 : DevRef τ sig)) := by
  after_results_simp
  rfl

set_option maxRecDepth 65536 in
theorem keep4_arg4 (V : Valuation τ sig (Elt F)) :
    after ops4 V (main_arg4 : DevRef τ sig) = V (main_arg4 : DevRef τ sig) := by
  after_results_simp

set_option maxRecDepth 65536 in
theorem keep4_arg5 (V : Valuation τ sig (Elt F)) :
    after ops4 V (main_arg5 : DevRef τ sig) = V (main_arg5 : DevRef τ sig) := by
  after_results_simp

attribute [local irreducible] Host.gather Host.scatterAdd Host.reduceAdd concatenate in
set_option maxRecDepth 65536 in
/-- Stage 5: the column means. -/
theorem mean5 (V : Valuation τ sig (Elt F)) :
    after ops5 V (main_v56 : DevRef τ sig) = meanR (V (main_v53 : DevRef τ sig)) := by
  after_results_simp
  rfl

attribute [local irreducible] Host.gather Host.scatterAdd Host.reduceAdd concatenate in
set_option maxRecDepth 65536 in
set_option maxHeartbeats 4000000 in
/-- Stage 5: the column variances. -/
theorem var5 (V : Valuation τ sig (Elt F)) :
    after ops5 V (main_v57 : DevRef τ sig) = varR (V (main_v53 : DevRef τ sig)) := by
  after_results_simp
  rfl

set_option maxRecDepth 65536 in
theorem keep5_v53 (V : Valuation τ sig (Elt F)) :
    after ops5 V (main_v53 : DevRef τ sig) = V (main_v53 : DevRef τ sig) := by
  after_results_simp

set_option maxRecDepth 65536 in
theorem keep5_arg4 (V : Valuation τ sig (Elt F)) :
    after ops5 V (main_arg4 : DevRef τ sig) = V (main_arg4 : DevRef τ sig) := by
  after_results_simp

set_option maxRecDepth 65536 in
theorem keep5_arg5 (V : Valuation τ sig (Elt F)) :
    after ops5 V (main_arg5 : DevRef τ sig) = V (main_arg5 : DevRef τ sig) := by
  after_results_simp

attribute [local irreducible] Host.gather Host.scatterAdd Host.reduceAdd concatenate in
set_option maxRecDepth 65536 in
/-- Stage 6: the normalisation. -/
theorem out6 (V : Valuation τ sig (Elt F)) :
    after ops6 V (main_v72 : DevRef τ sig) = outR (V (main_v53 : DevRef τ sig)) (V (main_v56 : DevRef τ sig)) (V (main_v57 : DevRef τ sig)) (V (main_arg4 : DevRef τ sig)) (V (main_arg5 : DevRef τ sig)) := by
  after_results_simp
  rfl

/-- The line is its six stages one after the other. -/
theorem after_ops (V : Valuation τ sig (Elt F)) :
    after ops V = after ops6 (after ops5 (after ops4 (after ops3 (after ops2 (after ops1 V))))) := rfl

attribute [local irreducible] Host.gather Host.scatterAdd Host.reduceAdd concatenate in
set_option maxRecDepth 65536 in
set_option maxHeartbeats 4000000 in
/-- The result buffer after the line: the stages' terms composed are the reference term. -/
theorem out_eq (V : Valuation τ sig (Elt F)) :
    after ops V (main_v72 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_ops, out6, mean5, var5, keep5_v53, keep5_arg4, keep5_arg5, act4, keep4_arg4, keep4_arg5, agg3, keep3_arg3, keep3_arg4,
    keep3_arg5, dis2, keep2_v0, keep2_v4, keep2_v7, keep2_arg3, keep2_arg4, keep2_arg5, xw1, src1, dst1, keep1_arg3, keep1_arg4,
    keep1_arg5]
  rfl

set_option maxRecDepth 65536 in
/-- No operation of the line writes argument 0. -/
theorem arg0_eq (V : Valuation τ sig (Elt F)) :
    after ops V (main_arg0 : DevRef τ sig) = V (main_arg0 : DevRef τ sig) := by
  after_results_simp

set_option maxRecDepth 65536 in
/-- No operation of the line writes argument 1. -/
theorem arg1_eq (V : Valuation τ sig (Elt F)) :
    after ops V (main_arg1 : DevRef τ sig) = V (main_arg1 : DevRef τ sig) := by
  after_results_simp

set_option maxRecDepth 65536 in
/-- No operation of the line writes argument 2. -/
theorem arg2_eq (V : Valuation τ sig (Elt F)) :
    after ops V (main_arg2 : DevRef τ sig) = V (main_arg2 : DevRef τ sig) := by
  after_results_simp

set_option maxRecDepth 65536 in
/-- No operation of the line writes argument 3. -/
theorem arg3_eq (V : Valuation τ sig (Elt F)) :
    after ops V (main_arg3 : DevRef τ sig) = V (main_arg3 : DevRef τ sig) := by
  after_results_simp

set_option maxRecDepth 65536 in
/-- No operation of the line writes argument 4. -/
theorem arg4_eq (V : Valuation τ sig (Elt F)) :
    after ops V (main_arg4 : DevRef τ sig) = V (main_arg4 : DevRef τ sig) := by
  after_results_simp

set_option maxRecDepth 65536 in
/-- No operation of the line writes argument 5. -/
theorem arg5_eq (V : Valuation τ sig (Elt F)) :
    after ops V (main_arg5 : DevRef τ sig) = V (main_arg5 : DevRef τ sig) := by
  after_results_simp

/-- The run: the result at `refTerm` of the arguments, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v72) =
          refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c main_v72).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩) (run_main m ρ)

end Cert.ReferenceIdeal.RefValue

end
-- ==== Proof.SpecLaws.lean ====
/-
  The laws of the specification on the extended reals. The constants' values; that sums, products and differences of real
  entries are real; that the projection and the activation of real arrays are real; and the law that joins the two
  programs: on a column of real numbers the mean of squares minus the squared mean is the mean of the squared deviations,
  because Σ (h − μ)² = Σ h² − 2 μ Σ h + N μ² and Σ h = N μ (the expansion distributes a product over a sum, which is why
  the entries must be finite).
-/
import proofs.«148279_j47321949667549_1_alg».proof.Proof.Spec

noncomputable section

namespace Cert.Spec

open Idealize.ShloMosaic Idealize.ShloMosaic.ValueIdx

/-- The f32 zero is the real zero. -/
theorem z0_eq : z0 = 0 := Ideal.ofBits_zero_f32

/-- The f32 pattern 0x47435000 is the real 50000. -/
theorem cN_eq : cN = ((50000 : ℝ) : EReal) := by
  show Ideal.ofBits .f32 0x47435000#32 = ((50000 : ℝ) : EReal)
  simp [Ideal.ofBits, Ideal.ieee, -EReal.coe_mul]; norm_num

/-- The slope is the value of a finite pattern (exponent field 120, not all ones), hence a real number. -/
private theorem slope_real : ∃ s : ℝ, slope = (s : EReal) := by
  refine ⟨(10737418 : ℝ) * (2 : ℝ) ^ (-30 : Int), ?_⟩
  show Ideal.ofBits .f32 0x3C23D70A#32 = _
  simp [Ideal.ofBits, Ideal.ieee, -EReal.coe_mul]

theorem AllReal.add {ι : Type} {u v : ι → EReal} (hu : AllReal u) (hv : AllReal v) : AllReal (fun i => u i + v i) := by
  intro i
  obtain ⟨a, ha⟩ := hu i
  obtain ⟨b, hb⟩ := hv i
  exact ⟨a + b, by show u i + v i = _; rw [ha, hb, EReal.coe_add]⟩

theorem AllReal.mul {ι : Type} {u v : ι → EReal} (hu : AllReal u) (hv : AllReal v) : AllReal (fun i => u i * v i) := by
  intro i
  obtain ⟨a, ha⟩ := hu i
  obtain ⟨b, hb⟩ := hv i
  exact ⟨a * b, by show u i * v i = _; rw [ha, hb, EReal.coe_mul]⟩

/-- A finite sum of coerced reals is the coercion of the real sum. -/
private theorem sum_coe {κ : Type} (s : Finset κ) (f : κ → ℝ) :
    ∑ k ∈ s, ((f k : ℝ) : EReal) = ((∑ k ∈ s, f k : ℝ) : EReal) := by
  classical
  induction s using Finset.induction_on with
  | empty => simp
  | insert k s hk ih => rw [Finset.sum_insert hk, Finset.sum_insert hk, ih, EReal.coe_add]

/-- A finite sum of reals is real. -/
theorem AllReal.sum {ι κ : Type} [Fintype κ] {u : ι → κ → EReal} (hu : ∀ i, AllReal (u i)) :
    AllReal (fun i => ∑ k, u i k) := by
  intro i
  choose f hf using hu i
  exact ⟨∑ k, f k, by simp only [hf]; exact sum_coe _ _⟩

/-- The leaky rectifier of a real is real. -/
theorem leaky_real (r : ℝ) : ∃ s : ℝ, leaky (r : EReal) = (s : EReal) := by
  obtain ⟨s, hs⟩ := slope_real
  unfold leaky Scalar.select
  split_ifs
  · exact ⟨r, rfl⟩
  · exact ⟨s * r, by rw [hs, EReal.coe_mul]⟩

/-- The dense projection of real arrays is real. -/
theorem proj_allReal {x : FVec Ideal SNC .f32} {W : FVec Ideal SKC .f32} (hx : AllReal x) (hW : AllReal W) :
    AllReal (proj x W) :=
  AllReal.sum (u := fun (i : SNC.Idx) (k : Fin 128) => x (ix2 (i 0) k) * W (ix2 k (i 1)))
    (fun i => AllReal.mul (u := fun k => x (ix2 (i 0) k)) (v := fun k => W (ix2 k (i 1)))
      (fun k => hx _) (fun k => hW _))

/-- The activation of a real aggregate and a real bias is real. -/
theorem act_allReal {agg : FVec Ideal SNC .f32} {b : Fin 128 → EReal} (hagg : AllReal agg) (hb : AllReal b) :
    AllReal (act agg b) := by
  intro i
  obtain ⟨a, ha⟩ := hagg i
  obtain ⟨b', hb'⟩ := hb (i 1)
  show ∃ r : ℝ, leaky (agg i + b (i 1)) = (r : EReal)
  rw [ha, hb', ← EReal.coe_add]
  exact leaky_real _

/-- On a column of real numbers the mean of squares minus the squared mean is the mean of the squared deviations. -/
private theorem var_real (a : Fin 50000 → ℝ) (μ : ℝ) (hμ : μ = (∑ n, a n) * (1 / 50000 : ℝ)) :
    (∑ n, a n * a n) * (1 / 50000 : ℝ) - μ * μ = (∑ n, (a n - μ) * (a n - μ)) * (1 / 50000 : ℝ) := by
  have hS : ∑ n, a n = 50000 * μ := by rw [hμ]; ring
  have hexp : ∀ n, (a n - μ) * (a n - μ) = a n * a n - 2 * μ * a n + μ * μ := fun n => by ring
  have hsum : ∑ n, (a n - μ) * (a n - μ) = (∑ n, a n * a n) - 2 * μ * (∑ n, a n) + 50000 * (μ * μ) := by
    simp only [hexp]
    rw [Finset.sum_add_distrib, Finset.sum_sub_distrib, ← Finset.mul_sum, Finset.sum_const, Finset.card_univ,
      Fintype.card_fin, nsmul_eq_mul]
    norm_num
  rw [hsum, hS]
  ring

/-- The two forms of 1 / sqrt (variance + ε) agree on columns of real numbers. -/
theorem rstd_eq (h : FVec Ideal SNC .f32) (hfin : AllReal h) (c : Fin 128) : rstdMoments h c = rstdCentred h c := by
  choose a ha using fun n : Fin 50000 => hfin (ix2 n c)
  have h50 : (50000 : ℝ) ≠ 0 := by norm_num
  have hmean : meanOf h c = (((∑ n, a n) * (1 / 50000 : ℝ) : ℝ) : EReal) := by
    unfold meanOf colSum
    simp only [ha]
    rw [sum_coe, cN_eq, Ideal.div_coe h50, ← EReal.coe_mul]
  have hsq : Ideal.div (colSumSq h c) cN = (((∑ n, a n * a n) * (1 / 50000 : ℝ) : ℝ) : EReal) := by
    unfold colSumSq
    simp only [ha, ← EReal.coe_mul]
    rw [sum_coe, cN_eq, Ideal.div_coe h50, ← EReal.coe_mul]
  unfold rstdMoments rstdCentred
  rw [hsq, hmean]
  simp only [ha, ← EReal.coe_sub, ← EReal.coe_mul]
  rw [sum_coe, cN_eq, Ideal.div_coe h50, ← EReal.coe_mul, var_real a _ rfl]

end Cert.Spec

end
-- ==== Proof.RefValue.lean ====
/-
  The reference's term read index by index on the extended reals: its dense product is the projection; its bias and
  rectifier the activation; its column mean the sum over the nodes divided by 50000; its variance, the divisor
  50000 − 0 being 50000 and positive, the mean of the squared deviations; its last stage the normalisation with the
  channel vectors read at the column.
-/
import proofs.«148279_j47321949667549_1_alg».proof.Proof.RefTerm
import proofs.«148279_j47321949667549_1_alg».proof.Proof.SpecLaws
import Idealize.ShloMosaic.Lib.Pipeline.Value
import Idealize.ShloMosaic.Lib.ValueLayout

noncomputable section

namespace Cert.ReferenceIdeal.RefValue

open Idealize.ShloMosaic Idealize.ShloMosaic.ValueIdx Cert.ReferenceIdeal
open Facts₀ Facts

variable [Cert.ReferenceIdeal.Facts] [Cert.KernelIdeal.Facts]

/-! ## The dense product -/

/-- The left operand of the product is read at the result's row … -/
theorem lhs_dg_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
/-- … and at the contracted position; -/
theorem lhs_dg_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
/-- the right operand at the contracted position … -/
theorem rhs_dg_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
/-- … and at the result's column. -/
theorem rhs_dg_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The reference's dense product is the projection. -/
theorem xwR_eq (x : FVec Ideal S50000x128 .f32) (W : FVec Ideal S128x128 .f32) :
    xwR (F := Ideal) x W = Cert.Spec.proj x W := by
  funext i
  obtain ⟨n, c, rfl⟩ : ∃ (n : Fin 50000) (c : Fin 128), i = ix2 n c := ⟨i 0, i 1, eq_ix2 i⟩
  unfold xwR Cert.Spec.proj
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n c)
      ((contrEquiv1 dot_S50000x128_S128x128_S50000x128_1_0_0_1_n_n 128 rfl rfl).symm k) = ix2 n k := funext fun a => Fin.ext (by
    match a with
    | ⟨0, _⟩ => exact lhs_dg_0 _ _
    | ⟨1, _⟩ => exact (lhs_dg_1 _ _).trans hk)
  have er : dot_S50000x128_S128x128_S50000x128_1_0_0_1_n_n.rhsIdx (ix2 n c)
      ((contrEquiv1 dot_S50000x128_S128x128_S50000x128_1_0_0_1_n_n 128 rfl rfl).symm k) = ix2 k c := funext fun a => Fin.ext (by
    match a with
    | ⟨0, _⟩ => exact (rhs_dg_0 _ _).trans hk
    | ⟨1, _⟩ => exact rhs_dg_1 _ _)
  rw [el, er]

/-! ## The broadcasts -/

/-- A one-row matrix broadcast down the nodes reads its row at the column. -/
theorem row_apply {α : Type} (Y : S1x128.Idx → α) (n : Fin 50000) (c : Fin 128) :
    broadcastInDim S50000x128 ![0, 1] bcast_S1x128_S50000x128_0_1 Y (ix2 n c) = Y (ix2 (0 : Fin 1) c) := by
  refine broadcastInDim_apply ![0, 1] _ Y (ix2 n c) (ix2 (0 : Fin 1) c) ?_
  intro a
  match a with
  | ⟨0, _⟩ => rfl
  | ⟨1, _⟩ => rfl

/-- A channel vector laid out as one row reads the vector at the column. -/
theorem lift_apply {α : Type} (v : S128.Idx → α) (c : Fin 128) :
    broadcastInDim S1x128 ![1] bcast_S128_S1x128_1 v (ix2 (0 : Fin 1) c) = v (ix1 c) := by
  refine broadcastInDim_apply ![1] _ v (ix2 (0 : Fin 1) c) (ix1 c) ?_
  intro a
  match a with
  | ⟨0, _⟩ => rfl

/-- A channel vector broadcast down the nodes reads the vector at the column. -/
theorem bc2_apply (v : FVec Ideal S128 .f32) (n : Fin 50000) (c : Fin 128) :
    bc2 (F := Ideal) v (ix2 n c) = v (ix1 c) := by
  unfold bc2
  rw [row_apply, lift_apply]

/-- A scalar broadcast to any shape reads the scalar. -/
theorem splat_apply {α : Type} {T : Shape} (h : S_.BroadcastsInDim T ![]) (x : S_.Idx → α) (j : T.Idx) :
    broadcastInDim T ![] h x j = x ix0 := by
  unfold broadcastInDim; exact congrArg x (funext fun a => a.elim0)

/-! ## The bias and the rectifier -/

/-- The reference's bias and rectifier are the activation. -/
theorem actR_eq (agg : FVec Ideal S50000x128 .f32) (b : FVec Ideal S128 .f32) :
    actR (F := Ideal) agg b = Cert.Spec.act agg (Cert.Spec.vec b) := by
  funext i
  obtain ⟨n, c, rfl⟩ : ∃ (n : Fin 50000) (c : Fin 128), i = ix2 n c := ⟨i 0, i 1, eq_ix2 i⟩
  unfold actR Cert.Spec.act Cert.Spec.leaky
  show Scalar.select (Ideal.cmp .oge (agg (ix2 n c) + bc2 (F := Ideal) b (ix2 n c)) (Ideal.ofBits .f32 0x00000000#32))
      (agg (ix2 n c) + bc2 (F := Ideal) b (ix2 n c))
      (Ideal.ofBits .f32 0x3C23D70A#32 * (agg (ix2 n c) + bc2 (F := Ideal) b (ix2 n c))) = _
  rw [bc2_apply]

/-! ## The column sums and means -/

/-- The reference's column sum is the sum over the nodes. -/
theorem sumR_apply (h : FVec Ideal S50000x128 .f32) (c : Fin 128) :
    sumR (F := Ideal) h (ix1 c) = Cert.Spec.colSum h c := by
  unfold sumR Cert.Spec.colSum
  show Ideal.hostReduceAdd reducesTo_S50000x128_S128_d0 h (Ideal.ofBits .f32 0x00000000#32) (ix1 c) = _
  rw [Ideal.hostReduceAdd_single reducesTo_S50000x128_S128_d0 (by decide), Ideal.ofBits_zero_f32, zero_add]
  refine Finset.sum_congr rfl fun k _ => ?_
  exact congrArg h (funext fun a => Fin.ext (by match a with | ⟨0, _⟩ => rfl | ⟨1, _⟩ => rfl))

/-- The reference's column mean is the specification's. -/
theorem meanR_apply (h : FVec Ideal S50000x128 .f32) (c : Fin 128) :
    meanR (F := Ideal) h (ix1 c) = Cert.Spec.meanOf h c := by
  unfold meanR Cert.Spec.meanOf
  show Ideal.div (sumR (F := Ideal) h (ix1 c)) (Ideal.ofBits .f32 0x47435000#32) = _
  rw [sumR_apply]

/-- The reference's deviation from the column mean. -/
theorem devR_apply (h : FVec Ideal S50000x128 .f32) (n : Fin 50000) (c : Fin 128) :
    devR (F := Ideal) h (ix2 n c) = h (ix2 n c) - Cert.Spec.meanOf h c := by
  unfold devR Cert.Spec.meanOf
  show h (ix2 n c) - broadcastInDim S50000x128 ![0, 1] bcast_S1x128_S50000x128_0_1
      (Host.divf (F := Ideal) (broadcastInDim S1x128 ![1] bcast_S128_S1x128_1 (sumR (F := Ideal) h))
        (broadcastInDim S1x128 ![] bcast_S_S1x128 (constant (F := Ideal) S_ .f32 0x47435000#32))) (ix2 n c) = _
  rw [row_apply]
  show h (ix2 n c) - Ideal.div (broadcastInDim S1x128 ![1] bcast_S128_S1x128_1 (sumR (F := Ideal) h) (ix2 (0 : Fin 1) c))
      (Ideal.ofBits .f32 0x47435000#32) = _
  rw [lift_apply, sumR_apply]

/-! ## The variance -/

/-- The divisor 50000 − 0 is 50000. -/
theorem dofR_apply (j : S_.Idx) : dofR (F := Ideal) j = Cert.Spec.cN := by
  unfold dofR
  show Ideal.ofBits .f32 0x47435000#32 - (((0#32 : BitVec 32).toInt : ℝ) : EReal) = _
  rw [show (((0#32 : BitVec 32).toInt : ℝ) : EReal) = 0 from by simp]
  exact sub_zero _

/-- 50000 is positive. -/
theorem cN_pos : (0 : EReal) < Cert.Spec.cN := by
  rw [Cert.Spec.cN_eq]; exact EReal.coe_pos.mpr (by norm_num)

/-- So the test that the divisor is positive succeeds. -/
theorem guard_apply (j : S_.Idx) :
    cmpf .ogt (dofR (F := Ideal)) (constant (F := Ideal) S_ .f32 0x00000000#32) j = 1#1 := by
  show Ideal.cmp .ogt (dofR (F := Ideal) j) (Ideal.ofBits .f32 0x00000000#32) = 1#1
  rw [dofR_apply, Ideal.ofBits_zero_f32]
  show BitVec.ofBool (decide ((0 : EReal) < Cert.Spec.cN)) = 1#1
  rw [decide_eq_true cN_pos]
  rfl

/-- The host's quotient at an entry is the division of the entries. -/
theorem hdiv_apply {s : Shape} (a b : FVec Ideal s .f32) (i : s.Idx) : Host.divf a b i = Ideal.div (a i) (b i) := rfl

/-- The reference's column variance is the mean of the squared deviations from the column mean. -/
theorem varR_apply (h : FVec Ideal S50000x128 .f32) (c : Fin 128) :
    varR (F := Ideal) h (ix1 c)
      = Ideal.div (∑ n : Fin 50000, (h (ix2 n c) - Cert.Spec.meanOf h c) * (h (ix2 n c) - Cert.Spec.meanOf h c)) Cert.Spec.cN := by
  unfold varR
  rw [select_apply, splat_apply, guard_apply, select_one, hdiv_apply, splat_apply, dofR_apply, sumR_apply]
  unfold Cert.Spec.colSum
  refine congrArg (Ideal.div · Cert.Spec.cN) (Finset.sum_congr rfl fun n _ => ?_)
  rw [mulf_apply, devR_apply]

/-! ## The normalisation -/

/-- The reference's last stage at an entry. -/
theorem outR_apply (h : FVec Ideal S50000x128 .f32) (mean var g be : FVec Ideal S128 .f32) (n : Fin 50000) (c : Fin 128) :
    outR (F := Ideal) h mean var g be (ix2 n c)
      = (g (ix1 c) * (h (ix2 n c) - mean (ix1 c))) * Ideal.rsqrt (var (ix1 c) + Cert.Spec.cEps) + be (ix1 c) := by
  unfold outR
  show (bc2 (F := Ideal) g (ix2 n c) * (h (ix2 n c) - bc2 (F := Ideal) mean (ix2 n c)))
      * bc2 (F := Ideal) (Host.rsqrt (addf var (broadcastInDim S128 ![] bcast_S_S128 (constant (F := Ideal) S_ .f32 0x3727C5AC#32)))) (ix2 n c)
      + bc2 (F := Ideal) be (ix2 n c) = _
  simp only [bc2_apply]
  show (g (ix1 c) * (h (ix2 n c) - mean (ix1 c)))
      * Ideal.rsqrt (var (ix1 c) + broadcastInDim S128 ![] bcast_S_S128 (constant (F := Ideal) S_ .f32 0x3727C5AC#32) (ix1 c))
      + be (ix1 c) = _
  rw [splat_apply]
  rfl

/-- The reference's term is the specification's layer, the variance in its centred form. -/
theorem refTerm_eq (x : FVec Ideal S50000x128 .f32) (ei : IVec S2x640000 32) (W : FVec Ideal S128x128 .f32)
    (b g be : FVec Ideal S128 .f32) :
    refTerm (F := Ideal) x ei W b g be =
      Cert.Spec.normalised Cert.Spec.rstdCentred
        (Cert.Spec.act (Cert.KernelIdeal.Val.aggChain (F := Ideal) (Cert.Spec.proj x W) ei) (Cert.Spec.vec b))
        (Cert.Spec.vec g) (Cert.Spec.vec be) := by
  have hH : hR (F := Ideal) x ei W b
      = Cert.Spec.act (Cert.KernelIdeal.Val.aggChain (F := Ideal) (Cert.Spec.proj x W) ei) (Cert.Spec.vec b) := by
    unfold hR
    rw [xwR_eq, actR_eq]
  unfold refTerm
  rw [hH]
  generalize Cert.Spec.act (Cert.KernelIdeal.Val.aggChain (F := Ideal) (Cert.Spec.proj x W) ei) (Cert.Spec.vec b) = H
  funext i
  obtain ⟨n, c, rfl⟩ : ∃ (n : Fin 50000) (c : Fin 128), i = ix2 n c := ⟨i 0, i 1, eq_ix2 i⟩
  rw [outR_apply, meanR_apply, varR_apply]
  unfold Cert.Spec.normalised Cert.Spec.affine Cert.Spec.rstdCentred
  rfl

end Cert.ReferenceIdeal.RefValue

end
-- ==== Proof.AggFinite.lean ====
/-
  The neighbourhood aggregation of a real array is real. Every stage keeps real entries real: a count of destinations is
  a finite sum of ones; 1 / sqrt of a real at least one is real; a lookup returns an entry of the array it reads; products
  of reals are real; a scatter-addition into zeros is, at each entry, zero plus a finite sum of the updates landing there.
-/
import proofs.«148279_j47321949667549_1_alg».proof.Proof.AggChain
import proofs.«148279_j47321949667549_1_alg».proof.Proof.Spec

noncomputable section

namespace Cert.KernelIdeal.Val

open Idealize.ShloMosaic Cert.KernelIdeal

/-! ## Real arithmetic on the extended reals -/

/-- A finite sum of reals is real. -/
private theorem real_finset_sum {κ : Type} (s : Finset κ) (f : κ → EReal) (hf : ∀ k, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    obtain ⟨r, hr⟩ := ih
    obtain ⟨ra, hra⟩ := hf a
    exact ⟨ra + r, by rw [Finset.sum_insert ha, hr, hra, EReal.coe_add]⟩

/-- The f32 one is the real one. -/
private theorem one_word : Ideal.ofBits .f32 0x3F800000#32 = ((1 : ℝ) : EReal) := by
  simp [Ideal.ofBits, Ideal.ieee, -EReal.coe_mul]; norm_num

/-- The f32 zero is the real zero. -/
private theorem zero_word : Ideal.ofBits .f32 0x00000000#32 = ((0 : ℝ) : EReal) := by
  rw [Ideal.ofBits_zero_f32, EReal.coe_zero]

/-! ## The stages' operations, each keeping real entries real -/

/-- A constant array of a real word is real. -/
private theorem bcast_const_real {t : Shape} (dims : Fin S_.rank → Fin t.rank) (h : S_.BroadcastsInDim t dims) (b : BitVec FTy.f32.bits)
    (hb : ∃ r : ℝ, Ideal.ofBits .f32 b = (r : EReal)) :
    Cert.Spec.AllReal (broadcastInDim t dims h (constant (F := Ideal) S_ .f32 b)) := fun _ => hb

/-- An entry of a broadcast is an entry of its operand. -/
private theorem bcast_real {s t : Shape} (dims : Fin s.rank → Fin t.rank) (h : s.BroadcastsInDim t dims) (x : s.Idx → EReal)
    (hx : Cert.Spec.AllReal x) : Cert.Spec.AllReal (broadcastInDim t dims h x) := fun _ => hx _

/-- A lookup returns entries of the array it reads, whatever the indices. -/
private theorem gather_real {s si t : Shape} {w : Nat} (d : GatherDims s si t) (x : s.Idx → EReal) (idx : IVec si w)
    (hx : Cert.Spec.AllReal x) : Cert.Spec.AllReal (Host.gather d x idx) := fun _ => hx _

/-- A product of real arrays is real. -/
private theorem mulf_real {s : Shape} (a b : FVec Ideal s .f32) (ha : Cert.Spec.AllReal a) (hb : Cert.Spec.AllReal b) :
    Cert.Spec.AllReal (mulf a b) := fun i => by
  obtain ⟨ra, hra⟩ := ha i
  obtain ⟨rb, hrb⟩ := hb i
  exact ⟨ra * rb, by show a i * b i = _; rw [hra, hrb, EReal.coe_mul]⟩

/-- A choice between two real arrays, by any mask, is real. -/
private theorem select_real {s : Shape} (m : IVec s 1) (a b : s.Idx → EReal) (ha : Cert.Spec.AllReal a) (hb : Cert.Spec.AllReal b) :
    Cert.Spec.AllReal (select m a b) := fun i => by
  show ∃ r : ℝ, (if m i = 1 then a i else b i) = (r : EReal)
  split
  · exact ha i
  · exact hb i

/-- A scatter-addition of real updates into a real array is real: each entry is the array's plus a finite sum of updates. -/
private theorem scatterAdd_real {s si su : Shape} {w : Nat} (d : ScatterDims s si su) (x : FVec Ideal s .f32) (idx : IVec si w)
    (upd : FVec Ideal su .f32) (hx : Cert.Spec.AllReal x) (hu : Cert.Spec.AllReal upd) :
    Cert.Spec.AllReal (Host.scatterAdd d x idx upd) := fun i => by
  obtain ⟨rx, hrx⟩ := hx i
  obtain ⟨rs, hrs⟩ := real_finset_sum (Finset.univ.filter (fun j => d.resultIdx? j idx = some i)) upd hu
  exact ⟨rx + rs, by
    show x i + ∑ j ∈ Finset.univ.filter (fun j => d.resultIdx? j idx = some i), upd j = _
    rw [hrx, hrs, EReal.coe_add]⟩

/-- 1 / sqrt (max d 1) of a real d is real: max d 1 is a real at least one. -/
private theorem rsqrt_max_one_real {s : Shape} (deg one : FVec Ideal s .f32) (hd : Cert.Spec.AllReal deg)
    (h1 : ∀ i, one i = ((1 : ℝ) : EReal)) : Cert.Spec.AllReal (Host.rsqrt (maximumf deg one)) := fun i => by
  obtain ⟨r, hr⟩ := hd i
  show ∃ q : ℝ, Ideal.rsqrt (max (deg i) (one i)) = (q : EReal)
  rw [hr, h1 i, ← EReal.coe_strictMono.monotone.map_max, Ideal.rsqrt_coe]
  have hpos : (0 : ℝ) < max r 1 := lt_of_lt_of_le one_pos (le_max_right r 1)
  rw [if_neg (not_lt.mpr hpos.le), if_neg hpos.ne']
  exact ⟨_, rfl⟩

variable [Cert.KernelIdeal.Facts]

/-! ## The chain, stage by stage -/

/-- The destination counts are real: zero plus a finite sum of ones. -/
private theorem degOf_real (dst : (⟨S690000, .i32⟩ : BufTy).Contents (Elt Ideal)) : Cert.Spec.AllReal (degOf (F := Ideal) dst) := by
  unfold degOf
  exact scatterAdd_real _ _ _ _ (bcast_const_real _ _ _ ⟨0, zero_word⟩) (bcast_const_real _ _ _ ⟨1, one_word⟩)

/-- The reciprocal root degrees are real. -/
private theorem disOf_real (deg : (⟨S50000, .f32⟩ : BufTy).Contents (Elt Ideal)) (hd : Cert.Spec.AllReal deg) :
    Cert.Spec.AllReal (disOf (F := Ideal) deg) := by
  unfold disOf
  exact select_real _ _ _ (rsqrt_max_one_real _ _ hd fun _ => one_word) (bcast_const_real _ _ _ ⟨0, zero_word⟩)

/-- The edge weights are real. -/
private theorem normOf_real (dis : (⟨S50000, .f32⟩ : BufTy).Contents (Elt Ideal)) (src dst : (⟨S690000, .i32⟩ : BufTy).Contents (Elt Ideal))
    (hd : Cert.Spec.AllReal dis) : Cert.Spec.AllReal (normOf (F := Ideal) dis src dst) := by
  unfold normOf
  exact mulf_real _ _ (gather_real _ _ _ hd) (gather_real _ _ _ hd)

/-- The messages are real. -/
private theorem msgsOf_real (xw : (⟨S50000x128, .f32⟩ : BufTy).Contents (Elt Ideal)) (src : (⟨S690000, .i32⟩ : BufTy).Contents (Elt Ideal))
    (norm : (⟨S690000, .f32⟩ : BufTy).Contents (Elt Ideal)) (hxw : Cert.Spec.AllReal xw) (hn : Cert.Spec.AllReal norm) :
    Cert.Spec.AllReal (msgsOf (F := Ideal) xw src norm) := by
  unfold msgsOf
  exact mulf_real _ _ (gather_real _ _ _ hxw) (bcast_real _ _ _ (bcast_real _ _ _ hn))

/-- The aggregation of a real array, over any edge list, is real. -/
theorem aggChain_allReal (xw : (⟨S50000x128, .f32⟩ : BufTy).Contents (Elt Ideal)) (ei : (⟨S2x640000, .i32⟩ : BufTy).Contents (Elt Ideal))
    (hxw : Cert.Spec.AllReal xw) : Cert.Spec.AllReal (aggChain (F := Ideal) xw ei) := by
  unfold aggChain
  exact scatterAdd_real _ _ _ _ (bcast_const_real _ _ _ ⟨0, zero_word⟩)
    (msgsOf_real xw _ _ hxw (normOf_real _ _ _ (disOf_real _ (degOf_real _))))

end Cert.KernelIdeal.Val

end
-- ==== Proof.Finite.lean ====
/-
  What the precondition gives: it says, array by array, that every entry's absolute value is below +∞; an extended real
  whose absolute value is below +∞ is a real number. Read for the features, the weights and the bias (the two
  normalisation vectors are not needed real).
-/
import proofs.«148279_j47321949667549_1_alg».proof.Pre_finite_inputs
import proofs.«148279_j47321949667549_1_alg».proof.Proof.Spec
import Idealize.ShloMosaic.Lib.ReduceAll

noncomputable section

namespace Cert.Pre_finite_inputs.Val

open Idealize.ShloMosaic Cert.Pre_finite_inputs

variable [Cert.Pre_finite_inputs.Facts]

/-- The f32 pattern with all exponent bits set and no fraction bit is +∞. -/
private theorem ofBits_inf : Ideal.ofBits .f32 0x7F800000#32 = (⊤ : EReal) := by
  simp [Ideal.ofBits, Ideal.ieee]

/-- An extended real whose absolute value max a (−a) is strictly below +∞ is a real number:
    at ⊤ the maximum is ⊤, at ⊥ it is −⊥ = ⊤, and neither is below ⊤. -/
private theorem real_of_abs_lt_top (a : EReal) (h : Ideal.cmp .olt (max a (-a)) (⊤ : EReal) = 1#1) :
    ∃ r : ℝ, a = (r : EReal) := by
  induction a using EReal.rec with
  | bot => simp [Ideal.cmp] at h
  | coe r => exact ⟨r, rfl⟩
  | top => simp [Ideal.cmp] at h

/-- The rank-0 result shape has exactly one index. -/
private instance subsingleton_S_ : Subsingleton S_.Idx := ⟨fun a b => funext fun d => d.elim0⟩

/-- One array's conjunct of the precondition: if "all entries satisfy |v i| < +∞" came out true, every entry is real. -/
private theorem allReal_of_all {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
        (cmpf .olt (Host.absf v) (broadcastInDim s ![] hb (constant (F := Ideal) S_ .f32 0x7F800000#32)))
        (constantI S_ 1 1#1) hr hu ValueIdx.ix0 = 1#1) :
    Cert.Spec.AllReal v := by
  intro i
  have hi := Host.reduce_andi_all _ _ hr hu ValueIdx.ix0 e i
  apply real_of_abs_lt_top
  rw [← ofBits_inf]
  exact hi

/-- Under the precondition the features, the weights and the bias have real entries. -/
theorem allReal_of_pre (x : FVec Ideal S50000x128 .f32) (ei : IVec S2x640000 32) (W : FVec Ideal S128x128 .f32)
    (b g be : FVec Ideal S128 .f32) (h : Cert.Pre_finite_inputs.fn (F := Ideal) x ei W b g be = fun _ => 1#1) :
    Cert.Spec.AllReal x ∧ Cert.Spec.AllReal W ∧ Cert.Spec.AllReal b := by
  have h0 := congrFun h ValueIdx.ix0
  dsimp only [Cert.Pre_finite_inputs.fn, Cert.Pre_finite_inputs.fn_part1, andi] at h0
  obtain ⟨h1, _⟩ := IntOp.andi_eq_one.1 h0
  obtain ⟨h2, _⟩ := IntOp.andi_eq_one.1 h1
  obtain ⟨h3, hbias⟩ := IntOp.andi_eq_one.1 h2
  obtain ⟨hx, hW⟩ := IntOp.andi_eq_one.1 h3
  exact ⟨allReal_of_all x _ _ _ hx, allReal_of_all W _ _ _ hW, allReal_of_all b _ _ _ hbias⟩

end Cert.Pre_finite_inputs.Val

end
-- ==== Proof.lean ====
/-
  The certificate's five claims.

  The two kernel programs' frames are the generated ones. The reference has no kernel: its frame is its run with the
  result dropped. The idealization rewrote nothing, so it preserves the program trivially.

  The equivalence on the extended reals. Both programs compute a graph convolution (a dense projection of the node
  features, then the degree-normalised neighbourhood aggregation, the same chain of host gathers and scatter-additions
  in both), add a bias, apply a leaky rectifier and normalise every channel over the 50000 nodes:
  (γ · (h − μ)) · rsqrt (var + ε) + β. They differ only in the variance: the kernel program accumulates the column sums
  of h and of h², block of 5000 nodes by block, and takes (Σ h²) / N − μ²; the reference takes Σ (h − μ)² / N. On the
  extended reals these agree when every h is a real number, and under the precondition it is: the features, the weights
  and the bias are finite, so the projection is a finite sum of real products, every stage of the aggregation keeps real
  entries real whatever the edge list (a count, the reciprocal square root of a real at least one, looked-up entries,
  products, finite sums), and the rectifier of a real is real. The two normalisation vectors need not be finite: they
  enter both sides the same way.
-/
import proofs.«148279_j47321949667549_1_alg».proof.Defs
import proofs.«148279_j47321949667549_1_alg».proof.Proof.Gen.Kernel
import proofs.«148279_j47321949667549_1_alg».proof.Proof.Gen.Kernel.Frame
import proofs.«148279_j47321949667549_1_alg».proof.Proof.Gen.KernelIdeal
import proofs.«148279_j47321949667549_1_alg».proof.Proof.Gen.KernelIdeal.Frame
import proofs.«148279_j47321949667549_1_alg».proof.Proof.Gen.ReferenceIdeal
import proofs.«148279_j47321949667549_1_alg».proof.Proof.Gen.Pre_finite_inputs
import proofs.«148279_j47321949667549_1_alg».proof.Proof.KernelRun
import proofs.«148279_j47321949667549_1_alg».proof.Proof.KValue
import proofs.«148279_j47321949667549_1_alg».proof.Proof.RefRun
import proofs.«148279_j47321949667549_1_alg».proof.Proof.RefValue
import proofs.«148279_j47321949667549_1_alg».proof.Proof.SpecLaws
import proofs.«148279_j47321949667549_1_alg».proof.Proof.AggFinite
import proofs.«148279_j47321949667549_1_alg».proof.Proof.Finite
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Under the precondition the kernel program's activations are real numbers. -/
theorem hK_real (m : (ℓ : Loc Cert.KernelIdeal.nD Cert.KernelIdeal.τ Cert.KernelIdeal.sig) → Buf (Elt Ideal) ℓ)
    (hpre : Cert.Pre_KernelIdeal m) (c : Dev Cert.KernelIdeal.nD) : Cert.Spec.AllReal (Cert.KernelIdeal.Val.hK m c) := by
  obtain ⟨hx, hW, hb⟩ := Cert.Pre_finite_inputs.Val.allReal_of_pre _ _ _ _ _ _ (hpre c)
  exact Cert.Spec.act_allReal
    (Cert.KernelIdeal.Val.aggChain_allReal _ _ (Cert.Spec.proj_allReal hx hW))
    (fun k => hb (ValueIdx.ix1 k))

/-- The two idealized programs, run from memories that agree on the arguments, end with equal results. -/
theorem algebraic : Cert.algebraic_KernelIdeal_ReferenceIdeal := by
  intro m ρ m' ρ' hpre hagree
  refine ⟨fun c => Cert.Spec.normalised Cert.Spec.rstdMoments (Cert.KernelIdeal.Val.hK m c)
      (Cert.Spec.vec (m ((c.tc : Thread Cert.KernelIdeal.nD Cert.KernelIdeal.τ).loc Cert.KernelIdeal.main_arg4)))
      (Cert.Spec.vec (m ((c.tc : Thread Cert.KernelIdeal.nD Cert.KernelIdeal.τ).loc Cert.KernelIdeal.main_arg5))), ?_, ?_⟩
  · exact (θ_run Cert.KernelIdeal.defs _ _).mono
      (fun _ h c => ⟨(h c).1.trans (Cert.KernelIdeal.Val.result_eq m ρ c), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2,
      Cert.ReferenceIdeal.RefValue.refTerm_eq]
    show Cert.Spec.normalised Cert.Spec.rstdCentred (Cert.KernelIdeal.Val.hK m c) _ _ = _
    unfold Cert.Spec.normalised
    rw [show Cert.Spec.rstdCentred (Cert.KernelIdeal.Val.hK m c) = Cert.Spec.rstdMoments (Cert.KernelIdeal.Val.hK m c) from
      funext fun k => (Cert.Spec.rstd_eq _ (hK_real m hpre c) k).symm]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
